-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536x1 : Shape := ⟨2, ![65536, 1]⟩
abbrev S513x1024 : Shape := ⟨2, ![513, 1024]⟩
abbrev S1024 : Shape := ⟨1, ![1024]⟩
abbrev S1024x1024 : Shape := ⟨2, ![1024, 1024]⟩
abbrev S1024x256 : Shape := ⟨2, ![1024, 256]⟩
abbrev S256 : Shape := ⟨1, ![256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S65536x1 : S_.BroadcastsInDim S65536x1 (![] : Fin 0 → Fin S65536x1.rank)
  reducesTo_S65536x1_S_d0_1 : S65536x1.ReducesTo [0, 1] S_
  bcast_S_S513x1024 : S_.BroadcastsInDim S513x1024 (![] : Fin 0 → Fin S513x1024.rank)
  reducesTo_S513x1024_S_d0_1 : S513x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x256 .f32) (main_arg10 : FVec F S256 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x256 .f32 := Host.absf main_arg9
  let main_cst_16 : FVec F S_ .f32 := constant S_ .f32 0x7F800000#32
  let main_v45 : FVec F S1024x256 .f32 := broadcastInDim S1024x256 ![] bcast_S_S1024x256 main_cst_16
  let main_v46 : IVec S1024x256 1 := cmpf .olt main_v44 main_v45
  let main_c_17 : IVec S_ 1 := constantI S_ 1 1#1
  let main_v47 : IVec S_ 1 := (fun x v => Host.reduce IntOp.andi x v reducesTo_S1024x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x256 .f32) (main_arg10 : FVec F S256 .f32) (main_v13 : IVec S_ 1) (main_v16 : IVec S513x1024 1) : IVec S_ 1 :=
  let main_c_5 : IVec S_ 1 := constantI S_ 1 1#1
  let main_v17 : IVec S_ 1 := (fun x v => Host.reduce IntOp.andi x v reducesTo_S513x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S65536x256 .f32) (main_arg1 : FVec F S65536x256 .f32) (main_arg2 : FVec F S65536x1 .f32) (main_arg3 : FVec F S513x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x256 .f32) (main_arg10 : FVec F S256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x1 .f32 := Host.absf main_arg2
  let main_cst_2 : FVec F S_ .f32 := constant S_ .f32 0x7F800000#32
  let main_v10 : FVec F S65536x1 .f32 := broadcastInDim S65536x1 ![] bcast_S_S65536x1 main_cst_2
  let main_v11 : IVec S65536x1 1 := cmpf .olt main_v9 main_v10
  let main_c_3 : IVec S_ 1 := constantI S_ 1 1#1
  let main_v12 : IVec S_ 1 := (fun x v => Host.reduce IntOp.andi x v reducesTo_S65536x1_S_d0_1 h_S_) main_v11 main_c_3
  let main_v13 : IVec S_ 1 := andi main_v8 main_v12
  let main_v14 : FVec F S513x1024 .f32 := Host.absf main_arg3
  let main_cst_4 : FVec F S_ .f32 := constant S_ .f32 0x7F800000#32
  let main_v15 : FVec F S513x1024 .f32 := broadcastInDim S513x1024 ![] bcast_S_S513x1024 main_cst_4
  let main_v16 : IVec S513x1024 1 := cmpf .olt main_v14 main_v15
  fn_part1 (F := F) main_arg4 main_arg5 main_arg6 main_arg7 main_arg8 main_arg9 main_arg10 main_v13 main_v16
-- ==== Kernel.lean ====
abbrev S65536x256 : Shape := ⟨2, ![65536, 256]⟩
abbrev S65536x1 : Shape := ⟨2, ![65536, 1]⟩
abbrev S513x1024 : Shape := ⟨2, ![513, 1024]⟩
abbrev S1024 : Shape := ⟨1, ![1024]⟩
abbrev S1024x1024 : Shape := ⟨2, ![1024, 1024]⟩
abbrev S1024x256 : Shape := ⟨2, ![1024, 256]⟩
abbrev S256 : Shape := ⟨1, ![256]⟩
abbrev S256x1024 : Shape := ⟨2, ![256, 1024]⟩
abbrev S1x1024 : Shape := ⟨2, ![1, 1024]⟩
abbrev S512x256 : Shape := ⟨2, ![512, 256]⟩
abbrev S512x1 : Shape := ⟨2, ![512, 1]⟩
abbrev S512x1024 : Shape := ⟨2, ![512, 1024]⟩
abbrev S1x256 : Shape := ⟨2, ![1, 256]⟩

abbrev nBuf : Space → Nat
  | .hbm => 22
  | .vmem => 20
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x1, .f32⟩
  | .hbm, ⟨3, _⟩ => ⟨S513x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x256, .f32⟩
  | .hbm, ⟨10, _⟩ => ⟨S256, .f32⟩
  | .hbm, ⟨11, _⟩ => ⟨S256x1024, .f32⟩
  | .hbm, ⟨12, _⟩ => ⟨S256x1024, .bf16⟩
  | .hbm, ⟨13, _⟩ => ⟨S256x1024, .f32⟩
  | .hbm, ⟨14, _⟩ => ⟨S256x1024, .bf16⟩
  | .hbm, ⟨15, _⟩ => ⟨S1x1024, .f32⟩
  | .hbm, ⟨16, _⟩ => ⟨S1x1024, .bf16⟩
  | .hbm, ⟨17, _⟩ => ⟨S1024x1024, .bf16⟩
  | .hbm, ⟨18, _⟩ => ⟨S1024x1024, .bf16⟩
  | .hbm, ⟨19, _⟩ => ⟨S1024x256, .bf16⟩
  | .hbm, ⟨20, _⟩ => ⟨S65536x256, .f32⟩
  | .hbm, ⟨21, _⟩ => ⟨S65536x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x1, .f32⟩
  | .local _ .vmem, ⟨5, _⟩ => ⟨S512x1, .f32⟩
  | .local _ .vmem, ⟨6, _⟩ => ⟨S256x1024, .bf16⟩
  | .local _ .vmem, ⟨7, _⟩ => ⟨S256x1024, .bf16⟩
  | .local _ .vmem, ⟨8, _⟩ => ⟨S1x1024, .bf16⟩
  | .local _ .vmem, ⟨9, _⟩ => ⟨S1024, .f32⟩
  | .local _ .vmem, ⟨10, _⟩ => ⟨S1024x1024, .bf16⟩
  | .local _ .vmem, ⟨11, _⟩ => ⟨S1024, .f32⟩
  | .local _ .vmem, ⟨12, _⟩ => ⟨S1024x1024, .bf16⟩
  | .local _ .vmem, ⟨13, _⟩ => ⟨S1024, .f32⟩
  | .local _ .vmem, ⟨14, _⟩ => ⟨S1024x256, .bf16⟩
  | .local _ .vmem, ⟨15, _⟩ => ⟨S256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S513x1024_S256x1024_0_0 : S513x1024.Slices ![0, 0] S256x1024
  bitsLt_bf16_f32 : FTy.bits .bf16 < FTy.bits .f32
  slices_S513x1024_S256x1024_256_0 : S513x1024.Slices ![256, 0] S256x1024
  slices_S513x1024_S1x1024_512_0 : S513x1024.Slices ![512, 0] S1x1024
  inb_S512x256_S512x256_0_0 : ∀ a, (![0, 0] : Fin 2 → Nat) a + S512x256.size a ≤ S512x256.size a
  h_S512x256 : 0 < S512x256.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024_S1024_0 : ∀ a, (![0] : Fin 1 → Nat) a + S1024.size a ≤ S1024.size a
  h_S1024 : 0 < S1024.numel
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  broadcasts_S512x1_S512x256 : S512x1.Broadcasts S512x256
  dot_S512x256_S256x1024_S512x1024_1_0_0_1_n_n_wf : DotDims.WF S512x256 S256x1024 S512x1024 [1] [0] [0] [1] [] []
  dot_S512x1024_S1024x1024_S512x1024_1_0_0_1_n_n_wf : DotDims.WF S512x1024 S1024x1024 S512x1024 [1] [0] [0] [1] [] []
  dot_S512x1024_S1024x256_S512x256_1_0_0_1_n_n_wf : DotDims.WF S512x1024 S1024x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S65536x256.size a
  hwx0_0 : ∀ i : grid0.Coords, EltTy.bits .f32 = 32 ∨ (Rect.block (s := S65536x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S65536x256.size a
  hwx0_1 : ∀ i : grid0.Coords, EltTy.bits .f32 = 32 ∨ (Rect.block (s := S65536x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S65536x1.size a
  hwx0_2 : ∀ i : grid0.Coords, EltTy.bits .f32 = 32 ∨ (Rect.block (s := S65536x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .bf16 = 32 ∨ (Rect.block (s := S256x1024) S256x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .bf16 = 32 ∨ (Rect.block (s := S256x1024) S256x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .bf16 = 32 ∨ (Rect.block (s := S1x1024) S1x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024.size a ≤ S1024.size a
  hwx0_10 : ∀ i : grid0.Coords, EltTy.bits .f32 = 32 ∨ (Rect.block (s := S1024) S1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x256.size a ≤ S1024x256.size a
  hwx0_11 : ∀ i : grid0.Coords, EltTy.bits .bf16 = 32 ∨ (Rect.block (s := S1024x256) S1024x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S256.size a
  hwx0_12 : ∀ i : grid0.Coords, EltTy.bits .f32 = 32 ∨ (Rect.block (s := S256) S256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x256.size a ≤ S65536x256.size a
  hwx0_13 : ∀ i : grid0.Coords, EltTy.bits .f32 = 32 ∨ (Rect.block (s := S65536x256) S512x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x256.size a ≤ S65536x256.size a
  hwx0_14 : ∀ i : grid0.Coords, EltTy.bits .f32 = 32 ∨ (Rect.block (s := S65536x256) S512x256.size (cc0_transform_14 i) (hinb0_14 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S1024x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v9_0) S512x256.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v9_1) S512x256.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S65536x256 : Shape := ⟨2, ![65536, 256]⟩
abbrev S65536x1 : Shape := ⟨2, ![65536, 1]⟩
abbrev S513x1024 : Shape := ⟨2, ![513, 1024]⟩
abbrev S1024 : Shape := ⟨1, ![1024]⟩
abbrev S1024x1024 : Shape := ⟨2, ![1024, 1024]⟩
abbrev S1024x256 : Shape := ⟨2, ![1024, 256]⟩
abbrev S256 : Shape := ⟨1, ![256]⟩
abbrev S65536x513 : Shape := ⟨2, ![65536, 513]⟩
abbrev S_ : Shape := ⟨0, ![]⟩
abbrev S1 : Shape := ⟨1, ![1]⟩
abbrev S65536 : Shape := ⟨1, ![65536]⟩
abbrev S65536x1024 : Shape := ⟨2, ![65536, 1024]⟩
abbrev S1x1024 : Shape := ⟨2, ![1, 1024]⟩
abbrev S1x256 : Shape := ⟨2, ![1, 256]⟩

abbrev nBuf : Space → Nat
  | .hbm => 98
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x1, .f32⟩
  | .hbm, ⟨3, _⟩ => ⟨S513x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x256, .f32⟩
  | .hbm, ⟨10, _⟩ => ⟨S256, .f32⟩
  | .hbm, ⟨11, _⟩ => ⟨S65536x513, .f32⟩
  | .hbm, ⟨12, _⟩ => ⟨S_, .f32⟩
  | .hbm, ⟨13, _⟩ => ⟨S65536x513, .f32⟩
  | .hbm, ⟨14, _⟩ => ⟨S_, .i32⟩
  | .hbm, ⟨15, _⟩ => ⟨S1, .i32⟩
  | .hbm, ⟨16, _⟩ => ⟨S_, .f32⟩
  | .hbm, ⟨17, _⟩ => ⟨S65536, .f32⟩
  | .hbm, ⟨18, _⟩ => ⟨S65536x513, .f32⟩
  | .hbm, ⟨19, _⟩ => ⟨S65536x1024, .f32⟩
  | .hbm, ⟨20, _⟩ => ⟨S65536x1024, .f32⟩
  | .hbm, ⟨21, _⟩ => ⟨S1x1024, .f32⟩
  | .hbm, ⟨22, _⟩ => ⟨S65536x1024, .f32⟩
  | .hbm, ⟨23, _⟩ => ⟨S65536x1024, .f32⟩
  | .hbm, ⟨24, _⟩ => ⟨S_, .f32⟩
  | .hbm, ⟨25, _⟩ => ⟨S65536x1024, .f32⟩
  | .hbm, ⟨26, _⟩ => ⟨S65536x1024, .f32⟩
  | .hbm, ⟨27, _⟩ => ⟨S_, .f32⟩
  | .hbm, ⟨28, _⟩ => ⟨S65536x1024, .f32⟩
  | .hbm, ⟨29, _⟩ => ⟨S65536x1024, .i1⟩
  | .hbm, ⟨30, _⟩ => ⟨S_, .f32⟩
  | .hbm, ⟨31, _⟩ => ⟨S65536x1024, .f32⟩
  | .hbm, ⟨32, _⟩ => ⟨S65536x1024, .f32⟩
  | .hbm, ⟨33, _⟩ => ⟨S65536x1024, .f32⟩
  | .hbm, ⟨34, _⟩ => ⟨S65536x1024, .f32⟩
  | .hbm, ⟨35, _⟩ => ⟨S1x1024, .f32⟩
  | .hbm, ⟨36, _⟩ => ⟨S65536x1024, .f32⟩
  | .hbm, ⟨37, _⟩ => ⟨S65536x1024, .f32⟩
  | .hbm, ⟨38, _⟩ => ⟨S_, .f32⟩
  | .hbm, ⟨39, _⟩ => ⟨S65536x1024, .f32⟩
  | .hbm, ⟨40, _⟩ => ⟨S65536x1024, .f32⟩
  | .hbm, ⟨41, _⟩ => ⟨S_, .f32⟩
  | .hbm, ⟨42, _⟩ => ⟨S65536x1024, .f32⟩
  | .hbm, ⟨43, _⟩ => ⟨S65536x1024, .i1⟩
  | .hbm, ⟨44, _⟩ => ⟨S_, .f32⟩
  | .hbm, ⟨45, _⟩ => ⟨S65536x1024, .f32⟩
  | .hbm, ⟨46, _⟩ => ⟨S65536x1024, .f32⟩
  | .hbm, ⟨47, _⟩ => ⟨S65536x1024, .f32⟩
  | .hbm, ⟨48, _⟩ => ⟨S65536x1024, .f32⟩
  | .hbm, ⟨49, _⟩ => ⟨S1x1024, .f32⟩
  | .hbm, ⟨50, _⟩ => ⟨S65536x1024, .f32⟩
  | .hbm, ⟨51, _⟩ => ⟨S65536x1024, .f32⟩
  | .hbm, ⟨52, _⟩ => ⟨S_, .f32⟩
  | .hbm, ⟨53, _⟩ => ⟨S65536x1024, .f32⟩
  | .hbm, ⟨54, _⟩ => ⟨S65536x1024, .f32⟩
  | .hbm, ⟨55, _⟩ => ⟨S_, .f32⟩
  | .hbm, ⟨56, _⟩ => ⟨S65536x1024, .f32⟩
  | .hbm, ⟨57, _⟩ => ⟨S65536x1024, .i1⟩
  | .hbm, ⟨58, _⟩ => ⟨S_, .f32⟩
  | .hbm, ⟨59, _⟩ => ⟨S65536x1024, .f32⟩
  | .hbm, ⟨60, _⟩ => ⟨S65536x1024, .f32⟩
  | .hbm, ⟨61, _⟩ => ⟨S65536x256, .f32⟩
  | .hbm, ⟨62, _⟩ => ⟨S65536x256, .f32⟩
  | .hbm, ⟨63, _⟩ => ⟨S1x256, .f32⟩
  | .hbm, ⟨64, _⟩ => ⟨S65536x256, .f32⟩
  | .hbm, ⟨65, _⟩ => ⟨S65536x256, .f32⟩
  | .hbm, ⟨66, _⟩ => ⟨S_, .f32⟩
  | .hbm, ⟨67, _⟩ => ⟨S65536x1, .f32⟩
  | .hbm, ⟨68, _⟩ => ⟨S65536x1, .f32⟩
  | .hbm, ⟨69, _⟩ => ⟨S65536x256, .f32⟩
  | .hbm, ⟨70, _⟩ => ⟨S65536x256, .f32⟩
  | .hbm, ⟨71, _⟩ => ⟨S65536x256, .f32⟩
  | .hbm, ⟨72, _⟩ => ⟨S65536x256, .f32⟩
  | .hbm, ⟨73, _⟩ => ⟨S65536x256, .f32⟩
  | .hbm, ⟨74, _⟩ => ⟨S_, .f32⟩
  | .hbm, ⟨75, _⟩ => ⟨S65536x1, .f32⟩
  | .hbm, ⟨76, _⟩ => ⟨S65536x1, .f32⟩
  | .hbm, ⟨77, _⟩ => ⟨S65536x1, .f32⟩
  | .hbm, ⟨78, _⟩ => ⟨S65536x256, .f32⟩
  | .hbm, ⟨79, _⟩ => ⟨S65536x256, .f32⟩
  | .hbm, ⟨80, _⟩ => ⟨S65536x256, .f32⟩
  | .hbm, ⟨81, _⟩ => ⟨S65536x256, .f32⟩
  | .hbm, ⟨82, _⟩ => ⟨S_, .f32⟩
  | .hbm, ⟨83, _⟩ => ⟨S65536x1, .f32⟩
  | .hbm, ⟨84, _⟩ => ⟨S65536x1, .f32⟩
  | .hbm, ⟨85, _⟩ => ⟨S65536x256, .f32⟩
  | .hbm, ⟨86, _⟩ => ⟨S65536x256, .f32⟩
  | .hbm, ⟨87, _⟩ => ⟨S65536x256, .f32⟩
  | .hbm, ⟨88, _⟩ => ⟨S65536x256, .f32⟩
  | .hbm, ⟨89, _⟩ => ⟨S65536x256, .f32⟩
  | .hbm, ⟨90, _⟩ => ⟨S65536x256, .f32⟩
  | .hbm, ⟨91, _⟩ => ⟨S_, .f32⟩
  | .hbm, ⟨92, _⟩ => ⟨S65536x1, .f32⟩
  | .hbm, ⟨93, _⟩ => ⟨S65536x1, .f32⟩
  | .hbm, ⟨94, _⟩ => ⟨S65536x1, .f32⟩
  | .hbm, ⟨95, _⟩ => ⟨S65536x256, .f32⟩
  | .hbm, ⟨96, _⟩ => ⟨S65536x256, .f32⟩
  | .hbm, ⟨97, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_call0_cst : Ref sig .tc := ⟨.hbm, 24, rfl⟩
abbrev main_call0_v0 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call1_cst : Ref sig .tc := ⟨.hbm, 38, rfl⟩
abbrev main_call1_v0 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_cst_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call2_cst : Ref sig .tc := ⟨.hbm, 52, rfl⟩
abbrev main_call2_v0 : Ref sig .tc := ⟨.hbm, 53, rfl⟩
abbrev main_v30 : Ref sig .tc := ⟨.hbm, 54, rfl⟩
abbrev main_cst_5 : Ref sig .tc := ⟨.hbm, 55, rfl⟩
abbrev main_v31 : Ref sig .tc := ⟨.hbm, 56, rfl⟩
abbrev main_v32 : Ref sig .tc := ⟨.hbm, 57, rfl⟩
abbrev main_cst_6 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_7 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_9 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_10 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩

abbrev nD : Nat := 1
abbrev τ : Topo := Topo.v7x

variable {F : FTy → Type} [FloatOps F]

class Facts₀ : Prop where
  concatenates_S65536x256_S65536x256_S65536x1_S65536x513_d1 : Shape.Concatenates [S65536x256, S65536x256, S65536x1] S65536x513 1
  bcast_S_S65536x513 : S_.BroadcastsInDim S65536x513 (![] : Fin 0 → Fin S65536x513.rank)
  bcast_S_S1 : S_.BroadcastsInDim S1 (![] : Fin 0 → Fin S1.rank)
  bcast_S_S65536 : S_.BroadcastsInDim S65536 (![] : Fin 0 → Fin S65536.rank)
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x1 : S_.BroadcastsInDim S65536x1 (![] : Fin 0 → Fin S65536x1.rank)
  bcast_S65536x1_S65536x256_0_1 : S65536x1.BroadcastsInDim S65536x256 (![0, 1] : Fin 2 → Fin S65536x256.rank)
  scatter_S65536x513_S1_S65536_0_1_1_0_wf : ScatterDims.WF S65536x513 S1 S65536 [0] [1] [1] 0
  dot_S65536x513_S513x1024_S65536x1024_1_0_0_1_n_n_wf : DotDims.WF S65536x513 S513x1024 S65536x1024 [1] [0] [0] [1] [] []
  dot_S65536x1024_S1024x1024_S65536x1024_1_0_0_1_n_n_wf : DotDims.WF S65536x1024 S1024x1024 S65536x1024 [1] [0] [0] [1] [] []
  dot_S65536x1024_S1024x256_S65536x256_1_0_0_1_n_n_wf : DotDims.WF S65536x1024 S1024x256 S65536x256 [1] [0] [0] [1] [] []

variable [Facts₀]

def scatter_S65536x513_S1_S65536_0_1_1_0 : ScatterDims S65536x513 S1 S65536 where
  updateWindowDims := [0]
  insertedWindowDims := [1]
  scatterDimsToOperandDims := [1]
  indexVectorDim := 0
  wf := scatter_S65536x513_S1_S65536_0_1_1_0_wf
def dot_S65536x513_S513x1024_S65536x1024_1_0_0_1_n_n : DotDims S65536x513 S513x1024 S65536x1024 where
  lhsContracting := [1]
  rhsContracting := [0]
  lhsNonContracting := [0]
  rhsNonContracting := [1]
  lhsBatch := []
  rhsBatch := []
  wf := dot_S65536x513_S513x1024_S65536x1024_1_0_0_1_n_n_wf
def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf
def dot_S65536x1024_S1024x256_S65536x256_1_0_0_1_n_n : DotDims S65536x1024 S1024x256 S65536x256 where
  lhsContracting := [1]
  rhsContracting := [0]
  lhsNonContracting := [0]
  rhsNonContracting := [1]
  lhsBatch := []
  rhsBatch := []
  wf := dot_S65536x1024_S1024x256_S65536x256_1_0_0_1_n_n_wf

class Facts : Prop extends Facts₀ where

variable [Facts]
-- ==== Proof.MlpSpec.lean ====
/-
  The per-sample function both programs compute, written twice over the extended reals.

  One sample is a pair of state rows `x0, x1 : Fin 256 → EReal` and a time `t`. A four-layer perceptron with weights
  `W1 … W4`, biases `b1 … b4` and the rectifier as activation is applied to the concatenated row `(x0, x1, t)` of
  length 513, and, next to it, its derivative in `t` is carried forward layer by layer: the derivative of the first
  pre-activation is row 512 of `W1`, and each rectifier passes a derivative exactly where its pre-activation is positive.
  With `f` the network's value and `f'` that derivative, the two results are
    `xt  = (1 - t) x0 + t x1 + t (1 - t) f`   and   `dxt = x1 - x0 + (1 - 2 t) f + t (1 - t) f'`.

  * The K form contracts the first layer in three pieces (the first 256 rows of `W1` against `x0`, the next 256 against
    `x1`, row 512 against `t`), writes the rectifier as a choice on the sign, and has the factor `1 - 2 t`.
  * The R form contracts the concatenated row of length 513 at once, obtains the first derivative as the product of the
    unit row `e₅₁₂` with `W1`, writes the rectifier as a maximum with zero, and has `(1 - t) f - t f`.
-/
import Idealize.ShloMosaic.PureOps.Ideal
import Idealize.ShloMosaic.Lib.ValueIdx

noncomputable section

open scoped BigOperators

namespace Mlp

/-- The weights and biases of the four layers. -/
structure Params where
  W1 : Fin 513 → Fin 1024 → EReal
  b1 : Fin 1024 → EReal
  W2 : Fin 1024 → Fin 1024 → EReal
  b2 : Fin 1024 → EReal
  W3 : Fin 1024 → Fin 1024 → EReal
  b3 : Fin 1024 → EReal
  W4 : Fin 1024 → Fin 256 → EReal
  b4 : Fin 256 → EReal

/-- `d` where `p` is positive, zero elsewhere: what a rectifier at pre-activation `p` passes of `d`. -/
def gate (p d : EReal) : EReal := if 0 < p then d else 0

/-- Entry `j` of the row `h` times the matrix `W`. -/
def lin {K N : Nat} (h : Fin K → EReal) (W : Fin K → Fin N → EReal) (j : Fin N) : EReal := ∑ k : Fin K, h k * W k j

/-- Row `k` of the first block of `W1` (the rows that meet `x0`). -/
def lo (k : Fin 256) : Fin 513 := ⟨k.val, by have := k.isLt; omega⟩
/-- Row `k` of the second block of `W1` (the rows that meet `x1`). -/
def hi (k : Fin 256) : Fin 513 := ⟨256 + k.val, by have := k.isLt; omega⟩
/-- The last row of `W1` (the row that meets `t`). -/
def last : Fin 513 := ⟨512, by omega⟩

/-- The concatenated input row `(x0, x1, t)`. -/
def zrow (x0 x1 : Fin 256 → EReal) (t : EReal) (k : Fin 513) : EReal :=
  if h : k.val < 256 then x0 ⟨k.val, h⟩
  else if h' : k.val < 512 then x1 ⟨k.val - 256, by omega⟩
  else t

/-- The unit row that selects coordinate 512. -/
def erow (k : Fin 513) : EReal := if k.val = 512 then 1 else 0

section
variable (P : Params) (x0 x1 : Fin 256 → EReal) (t : EReal)

/-! ## The K form -/

def pre1K (j : Fin 1024) : EReal :=
  ((∑ k : Fin 256, x0 k * P.W1 (lo k) j) + (∑ k : Fin 256, x1 k * P.W1 (hi k) j) + t * P.W1 last j) + P.b1 j
def h1K (j : Fin 1024) : EReal := gate (pre1K P x0 x1 t j) (pre1K P x0 x1 t j)
def d1K (j : Fin 1024) : EReal := gate (pre1K P x0 x1 t j) (P.W1 last j)
def pre2K (j : Fin 1024) : EReal := lin (h1K P x0 x1 t) P.W2 j + P.b2 j
def dp2K (j : Fin 1024) : EReal := lin (d1K P x0 x1 t) P.W2 j
def h2K (j : Fin 1024) : EReal := gate (pre2K P x0 x1 t j) (pre2K P x0 x1 t j)
def d2K (j : Fin 1024) : EReal := gate (pre2K P x0 x1 t j) (dp2K P x0 x1 t j)
def pre3K (j : Fin 1024) : EReal := lin (h2K P x0 x1 t) P.W3 j + P.b3 j
def dp3K (j : Fin 1024) : EReal := lin (d2K P x0 x1 t) P.W3 j
def h3K (j : Fin 1024) : EReal := gate (pre3K P x0 x1 t j) (pre3K P x0 x1 t j)
def d3K (j : Fin 1024) : EReal := gate (pre3K P x0 x1 t j) (dp3K P x0 x1 t j)
def fK (q : Fin 256) : EReal := lin (h3K P x0 x1 t) P.W4 q + P.b4 q
def dfK (q : Fin 256) : EReal := lin (d3K P x0 x1 t) P.W4 q
def xtK (q : Fin 256) : EReal := ((1 - t) * x0 q + t * x1 q) + (t * (1 - t)) * fK P x0 x1 t q
def dtK (q : Fin 256) : EReal := ((x1 q - x0 q) + (1 - 2 * t) * fK P x0 x1 t q) + (t * (1 - t)) * dfK P x0 x1 t q

/-! ## The R form -/

def pre1R (j : Fin 1024) : EReal := lin (zrow x0 x1 t) P.W1 j + P.b1 j
def h1R (j : Fin 1024) : EReal := max (pre1R P x0 x1 t j) 0
def d1R (j : Fin 1024) : EReal := gate (pre1R P x0 x1 t j) (lin erow P.W1 j)
def pre2R (j : Fin 1024) : EReal := lin (h1R P x0 x1 t) P.W2 j + P.b2 j
def dp2R (j : Fin 1024) : EReal := lin (d1R P x0 x1 t) P.W2 j
def h2R (j : Fin 1024) : EReal := max (pre2R P x0 x1 t j) 0
def d2R (j : Fin 1024) : EReal := gate (pre2R P x0 x1 t j) (dp2R P x0 x1 t j)
def pre3R (j : Fin 1024) : EReal := lin (h2R P x0 x1 t) P.W3 j + P.b3 j
def dp3R (j : Fin 1024) : EReal := lin (d2R P x0 x1 t) P.W3 j
def h3R (j : Fin 1024) : EReal := max (pre3R P x0 x1 t j) 0
def d3R (j : Fin 1024) : EReal := gate (pre3R P x0 x1 t j) (dp3R P x0 x1 t j)
def fR (q : Fin 256) : EReal := lin (h3R P x0 x1 t) P.W4 q + P.b4 q
def dfR (q : Fin 256) : EReal := lin (d3R P x0 x1 t) P.W4 q
def xtR (q : Fin 256) : EReal := ((1 - t) * x0 q + t * x1 q) + (t * (1 - t)) * fR P x0 x1 t q
def dtR (q : Fin 256) : EReal :=
  (((x1 q - x0 q) + (1 - t) * fR P x0 x1 t q) - t * fR P x0 x1 t q) + (t * (1 - t)) * dfR P x0 x1 t q

end

/-! ## Finite data -/

/-- An extended real that is a real number. -/
def IsR (x : EReal) : Prop := ∃ r : ℝ, x = (r : EReal)

/-- Every weight and bias is a real number. -/
structure Params.Real (P : Params) : Prop where
  W1 : ∀ k j, IsR (P.W1 k j)
  b1 : ∀ j, IsR (P.b1 j)
  W2 : ∀ k j, IsR (P.W2 k j)
  b2 : ∀ j, IsR (P.b2 j)
  W3 : ∀ k j, IsR (P.W3 k j)
  b3 : ∀ j, IsR (P.b3 j)
  W4 : ∀ k j, IsR (P.W4 k j)
  b4 : ∀ j, IsR (P.b4 j)

/-! ## Arrays as rows and matrices -/

open Idealize.ShloMosaic Idealize.ShloMosaic.ValueIdx

/-- The parameters read off the eight weight and bias arrays. -/
def paramsOf (W1 : (⟨2, ![513, 1024]⟩ : Shape).Idx → EReal) (b1 : (⟨1, ![1024]⟩ : Shape).Idx → EReal)
    (W2 : (⟨2, ![1024, 1024]⟩ : Shape).Idx → EReal) (b2 : (⟨1, ![1024]⟩ : Shape).Idx → EReal)
    (W3 : (⟨2, ![1024, 1024]⟩ : Shape).Idx → EReal) (b3 : (⟨1, ![1024]⟩ : Shape).Idx → EReal)
    (W4 : (⟨2, ![1024, 256]⟩ : Shape).Idx → EReal) (b4 : (⟨1, ![256]⟩ : Shape).Idx → EReal) : Params where
  W1 := fun k j => W1 (ix2 k j)
  b1 := fun j => b1 (ix1 j)
  W2 := fun k j => W2 (ix2 k j)
  b2 := fun j => b2 (ix1 j)
  W3 := fun k j => W3 (ix2 k j)
  b3 := fun j => b3 (ix1 j)
  W4 := fun k j => W4 (ix2 k j)
  b4 := fun j => b4 (ix1 j)

/-- Row `b` of a `[B, 256]` array. -/
def rowOf {B : Nat} (x : (⟨2, ![B, 256]⟩ : Shape).Idx → EReal) (b : Fin B) : Fin 256 → EReal := fun k => x (ix2 b k)

/-- Entry `b` of a `[B, 1]` column. -/
def colOf {B : Nat} (t : (⟨2, ![B, 1]⟩ : Shape).Idx → EReal) (b : Fin B) : EReal := t (ix2 b 0)

end Mlp

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.KernelRow.lean ====
/-
  The kernel's body, read entry by entry at the ideal values.

  One grid step holds 512 samples. For local sample `p` every stage of the body is a row function of that sample's
  rows `x0 p`, `x1 p`, its time `t p` and the weights: each matrix unit product into the zero accumulator is the plain
  sum over the contracted coordinate, a change of float format is the identity, a bias of length `n` enters as a
  `[1, n]` row repeated over the 512 samples, the time as a `[512, 1]` column repeated along the row, and a choice on
  `pre > 0` against the zero splat is the rectifier's gate. Stage by stage this is the K form of the specification.
-/
import proofs.«135234_j44229573214411_1_alg».proof.Proof.KernelIdealValue
import proofs.«135234_j44229573214411_1_alg».proof.Proof.MlpSpec
import proofs.«135234_j44229573214411_1_alg».proof.Proof.LibRowDims
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace Cert.KernelIdeal.RowValue

open Cert.KernelIdeal Cert.KernelIdeal.Gen Idealize.ShloMosaic Idealize.ShloMosaic.ValueIdx

/-! ## Small reads -/

/-- An `[a, 1]` column broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A choice on `x > z` between `a` and `z`, where `z` is zero, is the rectifier's gate. -/
theorem gate_of_select (x a z : EReal) (hz : z = 0) : Scalar.select (Ideal.cmp .ogt x z) a z = Mlp.gate x a := by
  subst hz
  unfold Scalar.select Ideal.cmp Mlp.gate
  by_cases h : (0 : EReal) < x
  · simp [h]
  · simp [h]

/-- A matrix unit product of two-dimensional operands into the zero accumulator, entry by entry. -/
theorem mm_apply {M K N : Nat} {φ₁ φ₂ : FTy} (d : DotDims ⟨2, ![M, K]⟩ ⟨2, ![K, N]⟩ ⟨2, ![M, N]⟩)
    (hd : d = DotDims.plain M K N) (l : FVec Ideal ⟨2, ![M, K]⟩ φ₁) (r : FVec Ideal ⟨2, ![K, N]⟩ φ₂) (p : Fin M) (q : Fin N) :
    matmul d none l r (constant ⟨2, ![M, N]⟩ .f32 0x00000000#32) (ix2 p q) = ∑ k : Fin K, l (ix2 p k) * r (ix2 k q) := by
  subst hd
  exact RowDims.matmul_plain_zero_apply none l r p q

/-! ## The first layer -/

section
variable (X0 X1 : Vec Ideal S512x256 .f32) (T : Vec Ideal S512x1 .f32) (Wt : Vec Ideal S1x1024 .bf16)
  (Wa Wb : Vec Ideal S256x1024 .bf16) (B1 : Vec Ideal S1024 .f32)

/-- The last row of the first weight matrix, repeated over the samples. -/
theorem pay3_apply (p : Fin 512) (j : Fin 1024) : k0_pay3 (F := Ideal) Wt (ix2 p j) = Wt (ix2 (0 : Fin 1) j) := by
  unfold k0_pay3
  rw [shapeCast_self, shapeCast_self]
  exact broadcastTo_1b_ab_apply _ _ p j

/-- The first pre-activation of sample `p`: the two blocks of the first weight matrix against `x0 p` and `x1 p`, its last
    row times the time, and the bias. -/
theorem pay4_apply (p : Fin 512) (j : Fin 1024) :
    k0_pay4 (F := Ideal) X0 X1 T Wt Wa Wb B1 (ix2 p j)
      = ((∑ k : Fin 256, X0 (ix2 p k) * Wa (ix2 k j)) + (∑ k : Fin 256, X1 (ix2 p k) * Wb (ix2 k j))
          + T (ix2 p (0 : Fin 1)) * Wt (ix2 (0 : Fin 1) j)) + B1 (ix1 j) := by
  unfold k0_pay4
  rw [addf_apply, addf_apply, addf_apply, mulf_apply, pay3_apply]
  rw [shapeCast_self, shapeCast_self, shapeCast_self]
  rw [mm_apply dot_S512x256_S256x1024_S512x1024_1_0_0_1_n_n rfl, mm_apply dot_S512x256_S256x1024_S512x1024_1_0_0_1_n_n rfl,
    broadcastTo_a1_ab_apply, broadcastTo_1b_ab_apply, shapeCast_a_1a_apply]
  rfl

end

/-- A choice on `pre > 0` against the zero splat, then a change of format: the rectifier's gate, entry by entry. -/
theorem gated_apply (pre d : FVec Ideal S512x1024 .f32) (p : Fin 512) (k : Fin 1024) :
    (truncf .bf16 (select (cmpf .ogt pre (broadcast S512x1024 (Scalar.ofBits .f32 0x00000000#32))) d
        (broadcast S512x1024 (Scalar.ofBits .f32 0x00000000#32))) bitsLt_bf16_f32 : FVec Ideal S512x1024 .bf16) (ix2 p k)
      = Mlp.gate (pre (ix2 p k)) (d (ix2 p k)) := by
  show Scalar.select (Ideal.cmp .ogt (pre (ix2 p k)) (Ideal.ofBits .f32 0x00000000#32)) (d (ix2 p k))
      (Ideal.ofBits .f32 0x00000000#32) = _
  exact gate_of_select _ _ _ Ideal.ofBits_zero_f32

/-- The word `0x40000000` is the extended real two. -/
theorem ofBits_two_f32 : Ideal.ofBits .f32 0x40000000#32 = 2 := by
  rw [show (2 : EReal) = ((2 : ℝ) : EReal) from rfl]
  simp [Ideal.ofBits, Ideal.ieee, -EReal.coe_mul]; norm_num

section
variable (X0 X1 : Vec Ideal S512x256 .f32) (T : Vec Ideal S512x1 .f32) (Wt : Vec Ideal S1x1024 .bf16)
  (Wa Wb : Vec Ideal S256x1024 .bf16) (B1 : Vec Ideal S1024 .f32)

/-- The derivative of the first activation: the last row of the first weight matrix where the pre-activation is positive. -/
theorem pay6_apply (p : Fin 512) (k : Fin 1024) :
    k0_pay6 (F := Ideal) X0 X1 T Wt Wa Wb B1 (ix2 p k)
      = Mlp.gate (k0_pay4 (F := Ideal) X0 X1 T Wt Wa Wb B1 (ix2 p k)) (Wt (ix2 (0 : Fin 1) k)) := by
  unfold k0_pay6 k0_pay5
  rw [gated_apply, pay3_apply]

/-- The first activation against the second weight matrix. -/
theorem pay8_apply (W2 : Vec Ideal S1024x1024 .bf16) (p : Fin 512) (j : Fin 1024) :
    k0_pay8 (F := Ideal) X0 X1 T Wt Wa Wb B1 W2 (ix2 p j)
      = ∑ k : Fin 1024, Mlp.gate (k0_pay4 (F := Ideal) X0 X1 T Wt Wa Wb B1 (ix2 p k))
          (k0_pay4 (F := Ideal) X0 X1 T Wt Wa Wb B1 (ix2 p k)) * W2 (ix2 k j) := by
  unfold k0_pay8 k0_pay7 k0_pay5
  rw [shapeCast_self, mm_apply dot_S512x1024_S1024x1024_S512x1024_1_0_0_1_n_n rfl]
  refine Finset.sum_congr rfl fun k _ => ?_
  rw [gated_apply]

end

/-! ## The later layers, over an arbitrary second pre-product `v35` -/

section
variable (v35 : FVec Ideal S512x1024 .f32) (B2 : Vec Ideal S1024 .f32) (W3 : Vec Ideal S1024x1024 .bf16)
  (B3 : Vec Ideal S1024 .f32) (W4 : Vec Ideal S1024x256 .bf16) (B4 : Vec Ideal S256 .f32)

theorem pay9_apply (p : Fin 512) (j : Fin 1024) : k0_pay9 (F := Ideal) v35 B2 (ix2 p j) = v35 (ix2 p j) + B2 (ix1 j) := by
  unfold k0_pay9
  rw [addf_apply, broadcastTo_1b_ab_apply, shapeCast_a_1a_apply]

theorem pay12_apply (p : Fin 512) (j : Fin 1024) :
    k0_pay12 (F := Ideal) v35 B2 W3 B3 (ix2 p j)
      = (∑ k : Fin 1024, Mlp.gate (k0_pay9 (F := Ideal) v35 B2 (ix2 p k)) (k0_pay9 (F := Ideal) v35 B2 (ix2 p k)) * W3 (ix2 k j))
          + B3 (ix1 j) := by
  unfold k0_pay12 k0_pay11 k0_pay10
  rw [addf_apply, shapeCast_self, mm_apply dot_S512x1024_S1024x1024_S512x1024_1_0_0_1_n_n rfl, broadcastTo_1b_ab_apply,
    shapeCast_a_1a_apply]
  refine congrArg (· + B3 (ix1 j)) (Finset.sum_congr rfl fun k _ => ?_)
  rw [gated_apply]

theorem pay15_apply (p : Fin 512) (q : Fin 256) :
    k0_pay15 (F := Ideal) v35 B2 W3 B3 W4 B4 (ix2 p q)
      = (∑ k : Fin 1024, Mlp.gate (k0_pay12 (F := Ideal) v35 B2 W3 B3 (ix2 p k)) (k0_pay12 (F := Ideal) v35 B2 W3 B3 (ix2 p k))
            * W4 (ix2 k q)) + B4 (ix1 q) := by
  unfold k0_pay15 k0_pay14 k0_pay13
  rw [addf_apply, shapeCast_self, mm_apply dot_S512x1024_S1024x256_S512x256_1_0_0_1_n_n rfl, broadcastTo_1b_ab_apply,
    shapeCast_a_1a_apply]
  refine congrArg (· + B4 (ix1 q)) (Finset.sum_congr rfl fun k _ => ?_)
  rw [gated_apply]

/-- The derivative carried through the second, third and fourth layers. -/
theorem pay16_apply (v32 : FVec Ideal S512x1024 .bf16) (v34 : FVec Ideal S1024x1024 .bf16) (p : Fin 512) (q : Fin 256) :
    k0_pay16 (F := Ideal) v32 v34 v35 B2 W3 B3 W4 (ix2 p q)
      = ∑ k3 : Fin 1024, Mlp.gate (k0_pay12 (F := Ideal) v35 B2 W3 B3 (ix2 p k3))
          (∑ k2 : Fin 1024, Mlp.gate (k0_pay9 (F := Ideal) v35 B2 (ix2 p k2))
              (∑ k1 : Fin 1024, v32 (ix2 p k1) * v34 (ix2 k1 k2)) * W3 (ix2 k2 k3)) * W4 (ix2 k3 q) := by
  unfold k0_pay16 k0_pay14 k0_pay13 k0_pay11 k0_pay10
  rw [shapeCast_self, shapeCast_self, mm_apply dot_S512x1024_S1024x256_S512x256_1_0_0_1_n_n rfl]
  refine Finset.sum_congr rfl fun k3 _ => ?_
  rw [gated_apply, mm_apply dot_S512x1024_S1024x1024_S512x1024_1_0_0_1_n_n rfl]
  refine congrArg (fun z => Mlp.gate _ z * W4 (ix2 k3 q)) (Finset.sum_congr rfl fun k2 _ => ?_)
  rw [gated_apply, mm_apply dot_S512x1024_S1024x1024_S512x1024_1_0_0_1_n_n rfl]

end

/-! ## The blocks as the specification's data -/

/-- The weight and bias blocks a grid step holds are the parameters `P`: the three pieces of the first weight matrix
    its two blocks of 256 rows and its last row. -/
structure Reads (P : Mlp.Params) (Wt : Vec Ideal S1x1024 .bf16) (Wa Wb : Vec Ideal S256x1024 .bf16) (B1 : Vec Ideal S1024 .f32)
    (W2 : Vec Ideal S1024x1024 .bf16) (B2 : Vec Ideal S1024 .f32) (W3 : Vec Ideal S1024x1024 .bf16) (B3 : Vec Ideal S1024 .f32)
    (W4 : Vec Ideal S1024x256 .bf16) (B4 : Vec Ideal S256 .f32) : Prop where
  Wa : ∀ k j, Wa (ix2 k j) = P.W1 (Mlp.lo k) j
  Wb : ∀ k j, Wb (ix2 k j) = P.W1 (Mlp.hi k) j
  Wt : ∀ j, Wt (ix2 (0 : Fin 1) j) = P.W1 Mlp.last j
  B1 : ∀ j, B1 (ix1 j) = P.b1 j
  W2 : ∀ k j, W2 (ix2 k j) = P.W2 k j
  B2 : ∀ j, B2 (ix1 j) = P.b2 j
  W3 : ∀ k j, W3 (ix2 k j) = P.W3 k j
  B3 : ∀ j, B3 (ix1 j) = P.b3 j
  W4 : ∀ k q, W4 (ix2 k q) = P.W4 k q
  B4 : ∀ q, B4 (ix1 q) = P.b4 q

section
variable {P : Mlp.Params} {X0 X1 : Vec Ideal S512x256 .f32} {T : Vec Ideal S512x1 .f32} {Wt : Vec Ideal S1x1024 .bf16}
  {Wa Wb : Vec Ideal S256x1024 .bf16} {B1 : Vec Ideal S1024 .f32} {W2 : Vec Ideal S1024x1024 .bf16} {B2 : Vec Ideal S1024 .f32}
  {W3 : Vec Ideal S1024x1024 .bf16} {B3 : Vec Ideal S1024 .f32} {W4 : Vec Ideal S1024x256 .bf16} {B4 : Vec Ideal S256 .f32}
  (h : Reads P Wt Wa Wb B1 W2 B2 W3 B3 W4 B4)
include h

theorem pre1_eq (p : Fin 512) (j : Fin 1024) :
    k0_pay4 (F := Ideal) X0 X1 T Wt Wa Wb B1 (ix2 p j) = Mlp.pre1K P (Mlp.rowOf X0 p) (Mlp.rowOf X1 p) (Mlp.colOf T p) j := by
  rw [pay4_apply]
  unfold Mlp.pre1K Mlp.rowOf Mlp.colOf
  simp only [h.Wa, h.Wb, h.Wt, h.B1]

theorem d1_eq (p : Fin 512) (k : Fin 1024) :
    k0_pay6 (F := Ideal) X0 X1 T Wt Wa Wb B1 (ix2 p k) = Mlp.d1K P (Mlp.rowOf X0 p) (Mlp.rowOf X1 p) (Mlp.colOf T p) k := by
  rw [pay6_apply, pre1_eq h, h.Wt]
  rfl

theorem lin1_eq (p : Fin 512) (j : Fin 1024) :
    k0_pay8 (F := Ideal) X0 X1 T Wt Wa Wb B1 W2 (ix2 p j)
      = Mlp.lin (Mlp.h1K P (Mlp.rowOf X0 p) (Mlp.rowOf X1 p) (Mlp.colOf T p)) P.W2 j := by
  rw [pay8_apply]
  unfold Mlp.lin Mlp.h1K
  simp only [pre1_eq h, h.W2]

theorem pre2_eq (p : Fin 512) (j : Fin 1024) :
    k0_pay9 (F := Ideal) (k0_pay8 (F := Ideal) X0 X1 T Wt Wa Wb B1 W2) B2 (ix2 p j)
      = Mlp.pre2K P (Mlp.rowOf X0 p) (Mlp.rowOf X1 p) (Mlp.colOf T p) j := by
  rw [pay9_apply, lin1_eq h, h.B2]
  rfl

theorem pre3_eq (p : Fin 512) (j : Fin 1024) :
    k0_pay12 (F := Ideal) (k0_pay8 (F := Ideal) X0 X1 T Wt Wa Wb B1 W2) B2 W3 B3 (ix2 p j)
      = Mlp.pre3K P (Mlp.rowOf X0 p) (Mlp.rowOf X1 p) (Mlp.colOf T p) j := by
  rw [pay12_apply, h.B3]
  unfold Mlp.pre3K Mlp.lin Mlp.h2K
  simp only [pre2_eq h, h.W3]

theorem f_eq (p : Fin 512) (q : Fin 256) :
    k0_pay15 (F := Ideal) (k0_pay8 (F := Ideal) X0 X1 T Wt Wa Wb B1 W2) B2 W3 B3 W4 B4 (ix2 p q)
      = Mlp.fK P (Mlp.rowOf X0 p) (Mlp.rowOf X1 p) (Mlp.colOf T p) q := by
  rw [pay15_apply, h.B4]
  unfold Mlp.fK Mlp.lin Mlp.h3K
  simp only [pre3_eq h, h.W4]

theorem df_eq (p : Fin 512) (q : Fin 256) :
    k0_pay16 (F := Ideal) (k0_pay6 (F := Ideal) X0 X1 T Wt Wa Wb B1) (k0_pay7 (F := Ideal) W2)
        (k0_pay8 (F := Ideal) X0 X1 T Wt Wa Wb B1 W2) B2 W3 B3 W4 (ix2 p q)
      = Mlp.dfK P (Mlp.rowOf X0 p) (Mlp.rowOf X1 p) (Mlp.colOf T p) q := by
  rw [pay16_apply]
  unfold Mlp.dfK Mlp.lin Mlp.d3K Mlp.dp3K Mlp.lin Mlp.d2K Mlp.dp2K Mlp.lin
  have e7 : k0_pay7 (F := Ideal) W2 = W2 := by unfold k0_pay7; exact shapeCast_self _ _
  simp only [pre3_eq h, pre2_eq h, d1_eq h, e7, h.W2, h.W3, h.W4]

/-- The first result of local sample `p`, entry `q`. -/
theorem xt_apply (p : Fin 512) (q : Fin 256) :
    Value.E13 (F := Ideal) T X0 X1 Wt Wa Wb B1 W2 B2 W3 B3 W4 B4 (ix2 p q)
      = Mlp.xtK P (Mlp.rowOf X0 p) (Mlp.rowOf X1 p) (Mlp.colOf T p) q := by
  have ec : ∀ i : S512x1.Idx, (i 0).val = p.val → i = ix2 p (0 : Fin 1) := fun i hi =>
    funext fun a => Fin.ext (by
      match a with
      | ⟨0, _⟩ => exact hi
      | ⟨1, _⟩ => have h1 : (i 1).val < 1 := (i 1).isLt; show (i 1).val = 0; omega)
  have em : ∀ i : S512x256.Idx, (i 0).val = p.val → (i 1).val = q.val → i = ix2 p q := fun i h0 h1 =>
    funext fun a => Fin.ext (by
      match a with
      | ⟨0, _⟩ => exact h0
      | ⟨1, _⟩ => exact h1)
  show ((Ideal.ofBits .f32 0x3F800000#32 - T (Value.ix13_0 (ix2 p q))) * X0 (Value.ix13_1 (ix2 p q))
      + T (Value.ix13_2 (ix2 p q)) * X1 (Value.ix13_3 (ix2 p q)))
      + (T (Value.ix13_4 (ix2 p q)) * (Ideal.ofBits .f32 0x3F800000#32 - T (Value.ix13_5 (ix2 p q))))
        * k0_pay15 (F := Ideal) (k0_pay8 (F := Ideal) X0 X1 T Wt Wa Wb B1 W2) B2 W3 B3 W4 B4 (Value.ix13_6 (ix2 p q)) = _
  rw [ec (Value.ix13_0 (ix2 p q)) rfl, ec (Value.ix13_2 (ix2 p q)) rfl, ec (Value.ix13_4 (ix2 p q)) rfl,
    ec (Value.ix13_5 (ix2 p q)) rfl, em (Value.ix13_1 (ix2 p q)) rfl rfl, em (Value.ix13_3 (ix2 p q)) rfl rfl,
    em (Value.ix13_6 (ix2 p q)) rfl rfl, f_eq h, Ideal.ofBits_one_f32]
  rfl

/-- The second result of local sample `p`, entry `q`. -/
theorem dt_apply (p : Fin 512) (q : Fin 256) :
    Value.E14 (F := Ideal) X1 X0 T Wt Wa Wb B1 W2 B2 W3 B3 W4 B4 (ix2 p q)
      = Mlp.dtK P (Mlp.rowOf X0 p) (Mlp.rowOf X1 p) (Mlp.colOf T p) q := by
  have ec : ∀ i : S512x1.Idx, (i 0).val = p.val → i = ix2 p (0 : Fin 1) := fun i hi =>
    funext fun a => Fin.ext (by
      match a with
      | ⟨0, _⟩ => exact hi
      | ⟨1, _⟩ => have h1 : (i 1).val < 1 := (i 1).isLt; show (i 1).val = 0; omega)
  have em : ∀ i : S512x256.Idx, (i 0).val = p.val → (i 1).val = q.val → i = ix2 p q := fun i h0 h1 =>
    funext fun a => Fin.ext (by
      match a with
      | ⟨0, _⟩ => exact h0
      | ⟨1, _⟩ => exact h1)
  show ((X1 (Value.ix14_0 (ix2 p q)) - X0 (Value.ix14_1 (ix2 p q)))
      + (Ideal.ofBits .f32 0x3F800000#32 - Ideal.ofBits .f32 0x40000000#32 * T (Value.ix14_2 (ix2 p q)))
        * k0_pay15 (F := Ideal) (k0_pay8 (F := Ideal) X0 X1 T Wt Wa Wb B1 W2) B2 W3 B3 W4 B4 (Value.ix14_3 (ix2 p q)))
      + (T (Value.ix14_4 (ix2 p q)) * (Ideal.ofBits .f32 0x3F800000#32 - T (Value.ix14_5 (ix2 p q))))
        * k0_pay16 (F := Ideal) (k0_pay6 (F := Ideal) X0 X1 T Wt Wa Wb B1) (k0_pay7 (F := Ideal) W2)
            (k0_pay8 (F := Ideal) X0 X1 T Wt Wa Wb B1 W2) B2 W3 B3 W4 (Value.ix14_6 (ix2 p q)) = _
  rw [ec (Value.ix14_2 (ix2 p q)) rfl, ec (Value.ix14_4 (ix2 p q)) rfl, ec (Value.ix14_5 (ix2 p q)) rfl,
    em (Value.ix14_0 (ix2 p q)) rfl rfl, em (Value.ix14_1 (ix2 p q)) rfl rfl, em (Value.ix14_3 (ix2 p q)) rfl rfl,
    em (Value.ix14_6 (ix2 p q)) rfl rfl, f_eq h, df_eq h, Ideal.ofBits_one_f32, ofBits_two_f32]
  rfl

end

end Cert.KernelIdeal.RowValue

end
-- ==== Proof.KernelArray.lean ====
/-
  From one grid step's blocks to the whole arrays.

  The grid has 128 steps; step `t` holds samples `512 t … 512 t + 511`: its blocks of `x0`, `x1`, `t` and of the two
  results are rows `512 t + p` of the arrays, while every weight and bias block is the whole array at every step. The
  weight arrays the steps read are copies of the arguments made before the launch: the first weight matrix cut into
  rows `0 … 255`, `256 … 511` and row `512`, each and the other three matrices changed to a narrower float format, which
  at the ideal values changes nothing. So what step `t` writes back is block `t` of the array whose row `b` is the
  specification's K form at sample `b`; the 128 blocks tile the 65536 rows, so the result arrays end holding that.
-/
import proofs.«135234_j44229573214411_1_alg».proof.Proof.KernelRow
import Idealize.ShloMosaic.Lib.StableHlo.Run

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The index maps, decided over the 128 steps -/

/-- The sample blocks move with the step; their column block is the only one. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_13.index t (0 : Fin 2) = t.val ∧ win0_13.index t (1 : Fin 2) = 0
    ∧ win0_14.index t (0 : Fin 2) = t.val ∧ win0_14.index t (1 : Fin 2) = 0 :=
  (by decide +kernel : ∀ t : Fin grid0.N, _)

/-- The weight and bias blocks stay at block zero. -/
theorem idx_const : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0
    ∧ win0_11.index t (0 : Fin 2) = 0 ∧ win0_11.index t (1 : Fin 2) = 0
    ∧ win0_12.index t (0 : Fin 1) = 0 :=
  (by decide +kernel : ∀ t : Fin grid0.N, _)

/-- The sample that local sample `p` of step `t` is. -/
def rowAt (t : Fin cfg0.N) (p : Fin 512) : Fin 65536 :=
  ⟨t.val * 512 + p.val, by
    have h : t.val < grid0.N := t.isLt
    rw [N_0] at h
    have := p.isLt
    omega⟩

/-! ## The blocks at a step, under their literal types -/

abbrev bX0 (c : Dev nD) (t : Fin cfg0.N) : Vec Ideal S512x256 .f32 := iblk m c 0 t
abbrev bX1 (c : Dev nD) (t : Fin cfg0.N) : Vec Ideal S512x256 .f32 := iblk m c 1 t
abbrev bT (c : Dev nD) (t : Fin cfg0.N) : Vec Ideal S512x1 .f32 := iblk m c 2 t
abbrev bWa (c : Dev nD) (t : Fin cfg0.N) : Vec Ideal S256x1024 .bf16 := iblk m c 3 t
abbrev bWb (c : Dev nD) (t : Fin cfg0.N) : Vec Ideal S256x1024 .bf16 := iblk m c 4 t
abbrev bWt (c : Dev nD) (t : Fin cfg0.N) : Vec Ideal S1x1024 .bf16 := iblk m c 5 t
abbrev bB1 (c : Dev nD) (t : Fin cfg0.N) : Vec Ideal S1024 .f32 := iblk m c 6 t
abbrev bW2 (c : Dev nD) (t : Fin cfg0.N) : Vec Ideal S1024x1024 .bf16 := iblk m c 7 t
abbrev bB2 (c : Dev nD) (t : Fin cfg0.N) : Vec Ideal S1024 .f32 := iblk m c 8 t
abbrev bW3 (c : Dev nD) (t : Fin cfg0.N) : Vec Ideal S1024x1024 .bf16 := iblk m c 9 t
abbrev bB3 (c : Dev nD) (t : Fin cfg0.N) : Vec Ideal S1024 .f32 := iblk m c 10 t
abbrev bW4 (c : Dev nD) (t : Fin cfg0.N) : Vec Ideal S1024x256 .bf16 := iblk m c 11 t
abbrev bB4 (c : Dev nD) (t : Fin cfg0.N) : Vec Ideal S256 .f32 := iblk m c 12 t

/-! ## The arrays the launch finds: the weight copies -/

theorem V_v1 (c : Dev nD) : (V m c main_v1 : S256x1024.Idx → EReal)
    = truncf (F := Ideal) .bf16 (extractStridedSlice S256x1024 ![0, 0] (m ((c : Thread nD τ).loc main_arg3)) slices_S513x1024_S256x1024_0_0) bitsLt_bf16_f32 := by
  dsimp only [V, hostOps0]; after_results

theorem V_v3 (c : Dev nD) : (V m c main_v3 : S256x1024.Idx → EReal)
    = truncf (F := Ideal) .bf16 (extractStridedSlice S256x1024 ![256, 0] (m ((c : Thread nD τ).loc main_arg3)) slices_S513x1024_S256x1024_256_0) bitsLt_bf16_f32 := by
  dsimp only [V, hostOps0]; after_results

theorem V_v5 (c : Dev nD) : (V m c main_v5 : S1x1024.Idx → EReal)
    = truncf (F := Ideal) .bf16 (extractStridedSlice S1x1024 ![512, 0] (m ((c : Thread nD τ).loc main_arg3)) slices_S513x1024_S1x1024_512_0) bitsLt_bf16_f32 := by
  dsimp only [V, hostOps0]; after_results

theorem V_v6 (c : Dev nD) : (V m c main_v6 : S1024x1024.Idx → EReal)
    = truncf (F := Ideal) .bf16 (m ((c : Thread nD τ).loc main_arg5)) bitsLt_bf16_f32 := by
  dsimp only [V, hostOps0]; after_results

theorem V_v7 (c : Dev nD) : (V m c main_v7 : S1024x1024.Idx → EReal)
    = truncf (F := Ideal) .bf16 (m ((c : Thread nD τ).loc main_arg7)) bitsLt_bf16_f32 := by
  dsimp only [V, hostOps0]; after_results

theorem V_v8 (c : Dev nD) : (V m c main_v8 : S1024x256.Idx → EReal)
    = truncf (F := Ideal) .bf16 (m ((c : Thread nD τ).loc main_arg9)) bitsLt_bf16_f32 := by
  dsimp only [V, hostOps0]; after_results

/-! ## The blocks read off the arguments -/

theorem bX0_apply (c : Dev nD) (t : Fin cfg0.N) (p : Fin 512) (k : Fin 256) :
    bX0 m c t (ix2 p k) = m ((c : Thread nD τ).loc main_arg0) (ix2 (rowAt t p) k) := by
  show V m c main_arg0 (((cfg0.win 0).blk t).view.emb (ix2 p k)) = _
  rw [V_main_arg0]
  obtain ⟨e0, e1, -⟩ := idx_rows t
  refine congrArg _ (funext fun a => Fin.ext ?_)
  match a with
  | ⟨0, _⟩ => show win0_0.index t (0 : Fin 2) * 512 + 1 * p.val = t.val * 512 + p.val; omega
  | ⟨1, _⟩ => show win0_0.index t (1 : Fin 2) * 256 + 1 * k.val = k.val; omega

theorem bX1_apply (c : Dev nD) (t : Fin cfg0.N) (p : Fin 512) (k : Fin 256) :
    bX1 m c t (ix2 p k) = m ((c : Thread nD τ).loc main_arg1) (ix2 (rowAt t p) k) := by
  show V m c main_arg1 (((cfg0.win 1).blk t).view.emb (ix2 p k)) = _
  rw [V_main_arg1]
  obtain ⟨-, -, e0, e1, -⟩ := idx_rows t
  refine congrArg _ (funext fun a => Fin.ext ?_)
  match a with
  | ⟨0, _⟩ => show win0_1.index t (0 : Fin 2) * 512 + 1 * p.val = t.val * 512 + p.val; omega
  | ⟨1, _⟩ => show win0_1.index t (1 : Fin 2) * 256 + 1 * k.val = k.val; omega

theorem bT_apply (c : Dev nD) (t : Fin cfg0.N) (p : Fin 512) :
    bT m c t (ix2 p (0 : Fin 1)) = m ((c : Thread nD τ).loc main_arg2) (ix2 (rowAt t p) (0 : Fin 1)) := by
  show V m c main_arg2 (((cfg0.win 2).blk t).view.emb (ix2 p (0 : Fin 1))) = _
  rw [V_main_arg2]
  obtain ⟨-, -, -, -, e0, e1, -⟩ := idx_rows t
  refine congrArg _ (funext fun a => Fin.ext ?_)
  match a with
  | ⟨0, _⟩ => show win0_2.index t (0 : Fin 2) * 512 + 1 * p.val = t.val * 512 + p.val; omega
  | ⟨1, _⟩ => show win0_2.index t (1 : Fin 2) * 1 + 1 * 0 = 0; omega

theorem bWa_apply (c : Dev nD) (t : Fin cfg0.N) (k : Fin 256) (j : Fin 1024) :
    bWa m c t (ix2 k j) = m ((c : Thread nD τ).loc main_arg3) (ix2 (Mlp.lo k) j) := by
  show V m c main_v1 (((cfg0.win 3).blk t).view.emb (ix2 k j)) = _
  obtain ⟨e0, e1, -⟩ := idx_const t
  have e : ((cfg0.win 3).blk t).view.emb (ix2 k j) = ix2 k j := funext fun a => Fin.ext (by
    match a with
    | ⟨0, _⟩ => show win0_3.index t (0 : Fin 2) * 256 + 1 * k.val = k.val; omega
    | ⟨1, _⟩ => show win0_3.index t (1 : Fin 2) * 1024 + 1 * j.val = j.val; omega)
  rw [e, V_v1]
  show extractStridedSlice S256x1024 ![0, 0] (m ((c : Thread nD τ).loc main_arg3)) slices_S513x1024_S256x1024_0_0 (ix2 k j) = _
  exact slice2_axis0_apply 0 (m ((c : Thread nD τ).loc main_arg3)) slices_S513x1024_S256x1024_0_0 k j (Mlp.lo k) (by show k.val = 0 + k.val; omega)

theorem bWb_apply (c : Dev nD) (t : Fin cfg0.N) (k : Fin 256) (j : Fin 1024) :
    bWb m c t (ix2 k j) = m ((c : Thread nD τ).loc main_arg3) (ix2 (Mlp.hi k) j) := by
  show V m c main_v3 (((cfg0.win 4).blk t).view.emb (ix2 k j)) = _
  obtain ⟨-, -, e0, e1, -⟩ := idx_const t
  have e : ((cfg0.win 4).blk t).view.emb (ix2 k j) = ix2 k j := funext fun a => Fin.ext (by
    match a with
    | ⟨0, _⟩ => show win0_4.index t (0 : Fin 2) * 256 + 1 * k.val = k.val; omega
    | ⟨1, _⟩ => show win0_4.index t (1 : Fin 2) * 1024 + 1 * j.val = j.val; omega)
  rw [e, V_v3]
  show extractStridedSlice S256x1024 ![256, 0] (m ((c : Thread nD τ).loc main_arg3)) slices_S513x1024_S256x1024_256_0 (ix2 k j) = _
  exact slice2_axis0_apply 256 (m ((c : Thread nD τ).loc main_arg3)) slices_S513x1024_S256x1024_256_0 k j (Mlp.hi k) rfl

theorem bWt_apply (c : Dev nD) (t : Fin cfg0.N) (j : Fin 1024) :
    bWt m c t (ix2 (0 : Fin 1) j) = m ((c : Thread nD τ).loc main_arg3) (ix2 Mlp.last j) := by
  show V m c main_v5 (((cfg0.win 5).blk t).view.emb (ix2 (0 : Fin 1) j)) = _
  obtain ⟨-, -, -, -, e0, e1, -⟩ := idx_const t
  have e : ((cfg0.win 5).blk t).view.emb (ix2 (0 : Fin 1) j) = ix2 (0 : Fin 1) j := funext fun a => Fin.ext (by
    match a with
    | ⟨0, _⟩ => show win0_5.index t (0 : Fin 2) * 1 + 1 * 0 = 0; omega
    | ⟨1, _⟩ => show win0_5.index t (1 : Fin 2) * 1024 + 1 * j.val = j.val; omega)
  rw [e, V_v5]
  show extractStridedSlice S1x1024 ![512, 0] (m ((c : Thread nD τ).loc main_arg3)) slices_S513x1024_S1x1024_512_0 (ix2 (0 : Fin 1) j) = _
  exact slice2_axis0_apply 512 (m ((c : Thread nD τ).loc main_arg3)) slices_S513x1024_S1x1024_512_0 (0 : Fin 1) j Mlp.last rfl

theorem bB1_apply (c : Dev nD) (t : Fin cfg0.N) (j : Fin 1024) : bB1 m c t (ix1 j) = m ((c : Thread nD τ).loc main_arg4) (ix1 j) := by
  show V m c main_arg4 (((cfg0.win 6).blk t).view.emb (ix1 j)) = _
  rw [V_main_arg4]
  obtain ⟨-, -, -, -, -, -, e0, -⟩ := idx_const t
  refine congrArg _ (funext fun a => Fin.ext ?_)
  match a with
  | ⟨0, _⟩ => show win0_6.index t (0 : Fin 1) * 1024 + 1 * j.val = j.val; omega

theorem bW2_apply (c : Dev nD) (t : Fin cfg0.N) (k j : Fin 1024) : bW2 m c t (ix2 k j) = m ((c : Thread nD τ).loc main_arg5) (ix2 k j) := by
  show V m c main_v6 (((cfg0.win 7).blk t).view.emb (ix2 k j)) = _
  obtain ⟨-, -, -, -, -, -, -, e0, e1, -⟩ := idx_const t
  have e : ((cfg0.win 7).blk t).view.emb (ix2 k j) = ix2 k j := funext fun a => Fin.ext (by
    match a with
    | ⟨0, _⟩ => show win0_7.index t (0 : Fin 2) * 1024 + 1 * k.val = k.val; omega
    | ⟨1, _⟩ => show win0_7.index t (1 : Fin 2) * 1024 + 1 * j.val = j.val; omega)
  rw [e, V_v6]
  rfl

theorem bB2_apply (c : Dev nD) (t : Fin cfg0.N) (j : Fin 1024) : bB2 m c t (ix1 j) = m ((c : Thread nD τ).loc main_arg6) (ix1 j) := by
  show V m c main_arg6 (((cfg0.win 8).blk t).view.emb (ix1 j)) = _
  rw [V_main_arg6]
  obtain ⟨-, -, -, -, -, -, -, -, -, e0, -⟩ := idx_const t
  refine congrArg _ (funext fun a => Fin.ext ?_)
  match a with
  | ⟨0, _⟩ => show win0_8.index t (0 : Fin 1) * 1024 + 1 * j.val = j.val; omega

theorem bW3_apply (c : Dev nD) (t : Fin cfg0.N) (k j : Fin 1024) : bW3 m c t (ix2 k j) = m ((c : Thread nD τ).loc main_arg7) (ix2 k j) := by
  show V m c main_v7 (((cfg0.win 9).blk t).view.emb (ix2 k j)) = _
  obtain ⟨-, -, -, -, -, -, -, -, -, -, e0, e1, -⟩ := idx_const t
  have e : ((cfg0.win 9).blk t).view.emb (ix2 k j) = ix2 k j := funext fun a => Fin.ext (by
    match a with
    | ⟨0, _⟩ => show win0_9.index t (0 : Fin 2) * 1024 + 1 * k.val = k.val; omega
    | ⟨1, _⟩ => show win0_9.index t (1 : Fin 2) * 1024 + 1 * j.val = j.val; omega)
  rw [e, V_v7]
  rfl

theorem bB3_apply (c : Dev nD) (t : Fin cfg0.N) (j : Fin 1024) : bB3 m c t (ix1 j) = m ((c : Thread nD τ).loc main_arg8) (ix1 j) := by
  show V m c main_arg8 (((cfg0.win 10).blk t).view.emb (ix1 j)) = _
  rw [V_main_arg8]
  obtain ⟨-, -, -, -, -, -, -, -, -, -, -, -, e0, -⟩ := idx_const t
  refine congrArg _ (funext fun a => Fin.ext ?_)
  match a with
  | ⟨0, _⟩ => show win0_10.index t (0 : Fin 1) * 1024 + 1 * j.val = j.val; omega

theorem bW4_apply (c : Dev nD) (t : Fin cfg0.N) (k : Fin 1024) (q : Fin 256) : bW4 m c t (ix2 k q) = m ((c : Thread nD τ).loc main_arg9) (ix2 k q) := by
  show V m c main_v8 (((cfg0.win 11).blk t).view.emb (ix2 k q)) = _
  obtain ⟨-, -, -, -, -, -, -, -, -, -, -, -, -, e0, e1, -⟩ := idx_const t
  have e : ((cfg0.win 11).blk t).view.emb (ix2 k q) = ix2 k q := funext fun a => Fin.ext (by
    match a with
    | ⟨0, _⟩ => show win0_11.index t (0 : Fin 2) * 1024 + 1 * k.val = k.val; omega
    | ⟨1, _⟩ => show win0_11.index t (1 : Fin 2) * 256 + 1 * q.val = q.val; omega)
  rw [e, V_v8]
  rfl

theorem bB4_apply (c : Dev nD) (t : Fin cfg0.N) (q : Fin 256) : bB4 m c t (ix1 q) = m ((c : Thread nD τ).loc main_arg10) (ix1 q) := by
  show V m c main_arg10 (((cfg0.win 12).blk t).view.emb (ix1 q)) = _
  rw [V_main_arg10]
  obtain ⟨-, -, -, -, -, -, -, -, -, -, -, -, -, -, -, e0⟩ := idx_const t
  refine congrArg _ (funext fun a => Fin.ext ?_)
  match a with
  | ⟨0, _⟩ => show win0_12.index t (0 : Fin 1) * 256 + 1 * q.val = q.val; omega

/-! ## The specification at the arguments -/

/-- The parameters read off the weight and bias arguments. -/
abbrev argP (c : Dev nD) : Mlp.Params :=
  Mlp.paramsOf (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))

/-- The first result array: row `b` is the K form's `xt` at sample `b`. -/
def Gxt (c : Dev nD) : S65536x256.Idx → EReal := fun i =>
  Mlp.xtK (argP m c) (Mlp.rowOf (m ((c : Thread nD τ).loc main_arg0)) (i 0)) (Mlp.rowOf (m ((c : Thread nD τ).loc main_arg1)) (i 0))
    (Mlp.colOf (m ((c : Thread nD τ).loc main_arg2)) (i 0)) (i 1)

/-- The second result array: row `b` is the K form's `dxt` at sample `b`. -/
def Gdt (c : Dev nD) : S65536x256.Idx → EReal := fun i =>
  Mlp.dtK (argP m c) (Mlp.rowOf (m ((c : Thread nD τ).loc main_arg0)) (i 0)) (Mlp.rowOf (m ((c : Thread nD τ).loc main_arg1)) (i 0))
    (Mlp.colOf (m ((c : Thread nD τ).loc main_arg2)) (i 0)) (i 1)

/-- At every step the weight and bias blocks are the arguments' parameters. -/
theorem reads (c : Dev nD) (t : Fin cfg0.N) :
    RowValue.Reads (argP m c) (bWt m c t) (bWa m c t) (bWb m c t) (bB1 m c t) (bW2 m c t) (bB2 m c t) (bW3 m c t) (bB3 m c t)
      (bW4 m c t) (bB4 m c t) :=
  ⟨bWa_apply m c t, bWb_apply m c t, bWt_apply m c t, bB1_apply m c t, bW2_apply m c t, bB2_apply m c t, bW3_apply m c t,
    bB3_apply m c t, bW4_apply m c t, bB4_apply m c t⟩

theorem rowX0 (c : Dev nD) (t : Fin cfg0.N) (p : Fin 512) :
    Mlp.rowOf (bX0 m c t) p = Mlp.rowOf (m ((c : Thread nD τ).loc main_arg0)) (rowAt t p) := funext fun k => bX0_apply m c t p k
theorem rowX1 (c : Dev nD) (t : Fin cfg0.N) (p : Fin 512) :
    Mlp.rowOf (bX1 m c t) p = Mlp.rowOf (m ((c : Thread nD τ).loc main_arg1)) (rowAt t p) := funext fun k => bX1_apply m c t p k
theorem colT (c : Dev nD) (t : Fin cfg0.N) (p : Fin 512) :
    Mlp.colOf (bT m c t) p = Mlp.colOf (m ((c : Thread nD τ).loc main_arg2)) (rowAt t p) := bT_apply m c t p

theorem hz2 : (![0, 0] : Fin 2 → Nat) = fun _ => 0 := funext fun a => by fin_cases a <;> rfl
theorem hz1 : (![0] : Fin 1 → Nat) = fun _ => 0 := funext fun a => by fin_cases a <;> rfl

/-! ## What a step leaves in its result blocks -/

theorem out13_apply (c : Dev nD) (t : Fin cfg0.N) (p : Fin 512) (q : Fin 256) :
    out0_13 (F := Ideal) (bX0 m c t) (bX1 m c t) (bT m c t) (bWa m c t) (bWb m c t) (bWt m c t) (bB1 m c t) (bW2 m c t) (bB2 m c t)
        (bW3 m c t) (bB3 m c t) (bW4 m c t) (bB4 m c t) (ix2 p q) = Gxt m c (ix2 (rowAt t p) q) := by
  unfold out0_13
  simp only [View.ld_unit_zero (S := S512x256) hz2, View.ld_unit_zero (S := S512x1) hz2, View.ld_unit_zero (S := S1x1024) hz2,
    View.ld_unit_zero (S := S256x1024) hz2, View.ld_unit_zero (S := S1024) hz1, View.ld_unit_zero (S := S1024x1024) hz2,
    View.ld_unit_zero (S := S1024x256) hz2, View.ld_unit_zero (S := S256) hz1]
  refine (Value.canon13_eq (bT m c t) (bX0 m c t) (bX1 m c t) (bWt m c t) (bWa m c t) (bWb m c t) (bB1 m c t) (bW2 m c t)
    (bB2 m c t) (bW3 m c t) (bB3 m c t) (bW4 m c t) (bB4 m c t) (ix2 p q)).trans ?_
  rw [RowValue.xt_apply (reads m c t) p q, rowX0, rowX1, colT]
  rfl

theorem out14_apply (c : Dev nD) (t : Fin cfg0.N) (p : Fin 512) (q : Fin 256) :
    out0_14 (F := Ideal) (bX0 m c t) (bX1 m c t) (bT m c t) (bWa m c t) (bWb m c t) (bWt m c t) (bB1 m c t) (bW2 m c t) (bB2 m c t)
        (bW3 m c t) (bB3 m c t) (bW4 m c t) (bB4 m c t) (ix2 p q) = Gdt m c (ix2 (rowAt t p) q) := by
  unfold out0_14
  simp only [View.ld_unit_zero (S := S512x256) hz2, View.ld_unit_zero (S := S512x1) hz2, View.ld_unit_zero (S := S1x1024) hz2,
    View.ld_unit_zero (S := S256x1024) hz2, View.ld_unit_zero (S := S1024) hz1, View.ld_unit_zero (S := S1024x1024) hz2,
    View.ld_unit_zero (S := S1024x256) hz2, View.ld_unit_zero (S := S256) hz1]
  refine (Value.canon14_eq (bX1 m c t) (bX0 m c t) (bT m c t) (bWt m c t) (bWa m c t) (bWb m c t) (bB1 m c t) (bW2 m c t)
    (bB2 m c t) (bW3 m c t) (bB3 m c t) (bW4 m c t) (bB4 m c t) (ix2 p q)).trans ?_
  rw [RowValue.dt_apply (reads m c t) p q, rowX0, rowX1, colT]
  rfl

/-- What step `t` writes back to the first result is block `t` of `Gxt`. -/
theorem flushed13_eq (c : Dev nD) (t : Fin cfg0.N) :
    (dats m 0 c).flushed 13 t = ((cfg0.win 13).blk t).view.read (Elt Ideal) (Gxt m c) := by
  rw [Value.flushed13]
  funext j
  obtain ⟨p, q, rfl⟩ : ∃ (p : Fin 512) (q : Fin 256), j = ix2 p q := ⟨j 0, j 1, eq_ix2 j⟩
  show out0_13 (F := Ideal) (bX0 m c t) (bX1 m c t) (bT m c t) (bWa m c t) (bWb m c t) (bWt m c t) (bB1 m c t) (bW2 m c t) (bB2 m c t)
      (bW3 m c t) (bB3 m c t) (bW4 m c t) (bB4 m c t) (ix2 p q) = Gxt m c (((cfg0.win 13).blk t).view.emb (ix2 p q))
  rw [out13_apply]
  obtain ⟨-, -, -, -, -, -, e0, e1, -⟩ := idx_rows t
  refine congrArg _ (funext fun a => Fin.ext ?_)
  match a with
  | ⟨0, _⟩ => show t.val * 512 + p.val = win0_13.index t (0 : Fin 2) * 512 + 1 * p.val; omega
  | ⟨1, _⟩ => show q.val = win0_13.index t (1 : Fin 2) * 256 + 1 * q.val; omega

/-- What step `t` writes back to the second result is block `t` of `Gdt`. -/
theorem flushed14_eq (c : Dev nD) (t : Fin cfg0.N) :
    (dats m 0 c).flushed 14 t = ((cfg0.win 14).blk t).view.read (Elt Ideal) (Gdt m c) := by
  rw [Value.flushed14]
  funext j
  obtain ⟨p, q, rfl⟩ : ∃ (p : Fin 512) (q : Fin 256), j = ix2 p q := ⟨j 0, j 1, eq_ix2 j⟩
  show out0_14 (F := Ideal) (bX0 m c t) (bX1 m c t) (bT m c t) (bWa m c t) (bWb m c t) (bWt m c t) (bB1 m c t) (bW2 m c t) (bB2 m c t)
      (bW3 m c t) (bB3 m c t) (bW4 m c t) (bB4 m c t) (ix2 p q) = Gdt m c (((cfg0.win 14).blk t).view.emb (ix2 p q))
  rw [out14_apply]
  obtain ⟨-, -, -, -, -, -, -, -, e0, e1⟩ := idx_rows t
  refine congrArg _ (funext fun a => Fin.ext ?_)
  match a with
  | ⟨0, _⟩ => show t.val * 512 + p.val = win0_14.index t (0 : Fin 2) * 512 + 1 * p.val; omega
  | ⟨1, _⟩ => show q.val = win0_14.index t (1 : Fin 2) * 256 + 1 * q.val; omega

/-! ## The 128 blocks tile the 65536 rows -/

theorem mem_blk13 (t : Fin cfg0.N) (i : S65536x256.Idx) :
    i ∈ ((cfg0.win 13).blk t).view.set ↔ ∀ a : Fin 2, win0_13.index t a * S512x256.size a ≤ (i a).val
      ∧ (i a).val < win0_13.index t a * S512x256.size a + S512x256.size a := by
  show i ∈ ((View.whole main_v9_0).slice (win0_13.rect t)).set ↔ _
  rw [View.set_slice_whole, Rect.mem_set_unit]
  exact Iff.rfl

theorem mem_blk14 (t : Fin cfg0.N) (i : S65536x256.Idx) :
    i ∈ ((cfg0.win 14).blk t).view.set ↔ ∀ a : Fin 2, win0_14.index t a * S512x256.size a ≤ (i a).val
      ∧ (i a).val < win0_14.index t a * S512x256.size a + S512x256.size a := by
  show i ∈ ((View.whole main_v9_1).slice (win0_14.rect t)).set ↔ _
  rw [View.set_slice_whole, Rect.mem_set_unit]
  exact Iff.rfl

/-- The step that holds row `r`. -/
def stepOf (i : S65536x256.Idx) : Fin cfg0.N :=
  ⟨(i 0).val / 512, by
    have hi0 : (i 0).val < 65536 := (i 0).isLt
    show (i 0).val / 512 < grid0.N
    rw [N_0]
    omega⟩

theorem cover13 (i : S65536x256.Idx) :
    ∃ t : Fin cfg0.N, (cfg0.win 13).flush t = true ∧ i ∈ ((cfg0.win 13).blk t).view.set := by
  have hi0 : (i 0).val < 65536 := (i 0).isLt
  have hi1 : (i 1).val < 256 := (i 1).isLt
  have ht : (stepOf i).val = (i 0).val / 512 := rfl
  obtain ⟨-, -, -, -, -, -, e0, e1, -⟩ := idx_rows (stepOf i)
  refine ⟨stepOf i, flush0_13 _, ?_⟩
  rw [mem_blk13]
  intro a
  match a with
  | ⟨0, _⟩ =>
    show win0_13.index (stepOf i) (0 : Fin 2) * 512 ≤ (i 0).val ∧ (i 0).val < win0_13.index (stepOf i) (0 : Fin 2) * 512 + 512
    omega
  | ⟨1, _⟩ =>
    show win0_13.index (stepOf i) (1 : Fin 2) * 256 ≤ (i 1).val ∧ (i 1).val < win0_13.index (stepOf i) (1 : Fin 2) * 256 + 256
    omega

theorem cover14 (i : S65536x256.Idx) :
    ∃ t : Fin cfg0.N, (cfg0.win 14).flush t = true ∧ i ∈ ((cfg0.win 14).blk t).view.set := by
  have hi0 : (i 0).val < 65536 := (i 0).isLt
  have hi1 : (i 1).val < 256 := (i 1).isLt
  have ht : (stepOf i).val = (i 0).val / 512 := rfl
  obtain ⟨-, -, -, -, -, -, -, -, e0, e1⟩ := idx_rows (stepOf i)
  refine ⟨stepOf i, flush0_14 _, ?_⟩
  rw [mem_blk14]
  intro a
  match a with
  | ⟨0, _⟩ =>
    show win0_14.index (stepOf i) (0 : Fin 2) * 512 ≤ (i 0).val ∧ (i 0).val < win0_14.index (stepOf i) (0 : Fin 2) * 512 + 512
    omega
  | ⟨1, _⟩ =>
    show win0_14.index (stepOf i) (1 : Fin 2) * 256 ≤ (i 1).val ∧ (i 1).val < win0_14.index (stepOf i) (1 : Fin 2) * 256 + 256
    omega

/-! ## The result arrays after the run -/

theorem final13 (c : Dev nD) : (dats m 0 c).arrAt 13 cfg0.N = Gxt m c :=
  (dats m 0 c).arrAt_eq_of_cover 13 (Gxt m c) (fun t _ => flushed13_eq m c t) cover13

theorem final14 (c : Dev nD) : (dats m 0 c).arrAt 14 cfg0.N = Gdt m c :=
  (dats m 0 c).arrAt_eq_of_cover 14 (Gdt m c) (fun t _ => flushed14_eq m c t) cover14

/-- The kernel's run: the two result arrays end at the specification's K form of the arguments, row by row, and the
    arguments are unchanged. -/
theorem run : θ_run defs (onTc (τ := τ) (main (F := Ideal))) ⟨m, fun _ => 0, ρ⟩ fun r => ∀ c : Dev nD,
      r.2.mem ((c : Thread nD τ).loc main_v9_0) = Gxt m c
      ∧ r.2.mem ((c : Thread nD τ).loc main_v9_1) = Gdt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final13 m c), (h c).2.1.trans (final14 m c), (h c).2.2⟩)
    (Value.run_blocks m ρ)

end Cert.KernelIdeal.ArrayValue

end
-- ==== Proof.RefRead.lean ====
/-
  The reference program read entry by entry.

  Every array the reference program writes is read at one entry (b, j) and identified with the matching function of
  sample b in the R form of the per-sample network: the concatenated row, the unit row the scatter writes, the four
  affine layers, the three rectifiers (a maximum with zero), the three gates of the derivative (a choice on the sign of
  the pre-activation) and the two final combinations.
-/
import proofs.«135234_j44229573214411_1_alg».proof.Proof.Gen.ReferenceIdeal.Read
import proofs.«135234_j44229573214411_1_alg».proof.Proof.MlpSpec
import Idealize.ShloMosaic.Lib.ValueIdx
import Idealize.ShloMosaic.Lib.Pipeline.Value
import Idealize.ShloMosaic.PureOps.Ideal.Laws
import Idealize.ShloMosaic.Lib.IdealHost

noncomputable section

open scoped BigOperators

namespace Cert.ReferenceIdeal.RefValue

open Cert.ReferenceIdeal Cert.ReferenceIdeal.Read Idealize.ShloMosaic Idealize.ShloMosaic.ValueIdx

/-! ## Scalars -/

/-- A choice on p > 0 between d and zero is the gate at p. -/
theorem select_gt_zero (p d : EReal) :
    Scalar.select (FloatOps.cmpf (F := Ideal) (φ := .f32) .ogt p (0 : EReal)) d (0 : EReal) = Mlp.gate p d := by
  unfold Mlp.gate Scalar.select
  rw [Ideal.cmpf_def]
  unfold Ideal.cmp
  by_cases h : (0 : EReal) < p
  · simp [h]
  · simp [h]

/-! ## The concatenated row -/

/-- The concatenation of the two state arrays and the time column along the columns, read at (b, k): column k of the
    first array for k < 256, column k - 256 of the second for 256 ≤ k < 512, and the time for k = 512. -/
theorem v0_eq (x0 x1 : (⟨S65536x256, .f32⟩ : BufTy).Contents (Elt Ideal)) (x2 : (⟨S65536x1, .f32⟩ : BufTy).Contents (Elt Ideal))
    (b : Fin 65536) (k : Fin 513) :
    val_main_v0 (F := Ideal) x0 x1 x2 (ix2 b k) = Mlp.zrow (Mlp.rowOf x0 b) (Mlp.rowOf x1 b) (Mlp.colOf x2 b) k := by
  unfold val_main_v0 Mlp.zrow
  by_cases h1 : k.val < 256
  · rw [dif_pos h1]
    refine concatenate_apply_piece (t := S65536x513) (xs := [⟨S65536x256, x0⟩, ⟨S65536x256, x1⟩, ⟨S65536x1, x2⟩]) 1 _ (ix2 b k) 0 (show 0 < 3 by omega) S65536x256 x0 rfl rfl 0 rfl
      (ix2 b ⟨k.val, h1⟩) (fun a ha => ?_) ?_
    · match a with
      | ⟨0, _⟩ => rfl
      | ⟨1, _⟩ => exact absurd rfl ha
    · show 0 + k.val = k.val
      omega
  · rw [dif_neg h1]
    by_cases h2 : k.val < 512
    · rw [dif_pos h2]
      refine concatenate_apply_piece (t := S65536x513) (xs := [⟨S65536x256, x0⟩, ⟨S65536x256, x1⟩, ⟨S65536x1, x2⟩]) 1 _ (ix2 b k) 1 (show 1 < 3 by omega) S65536x256 x1 rfl rfl 256 rfl
        (ix2 b ⟨k.val - 256, by omega⟩) (fun a ha => ?_) ?_
      · match a with
        | ⟨0, _⟩ => rfl
        | ⟨1, _⟩ => exact absurd rfl ha
      · show 256 + (k.val - 256) = k.val
        omega
    · rw [dif_neg h2]
      refine concatenate_apply_piece (t := S65536x513) (xs := [⟨S65536x256, x0⟩, ⟨S65536x256, x1⟩, ⟨S65536x1, x2⟩]) 1 _ (ix2 b k) 2 (show 2 < 3 by omega) S65536x1 x2 rfl rfl 512 rfl
        (ix2 b 0) (fun a ha => ?_) ?_
      · match a with
        | ⟨0, _⟩ => rfl
        | ⟨1, _⟩ => exact absurd rfl ha
      · show 512 + 0 = k.val
        have := k.isLt
        omega

/-! ## The unit row

The scatter writes its updates, all equal to one, into an array of zeros. It has one scatter index, the column 512, and
the updates' one axis runs along the rows: update r lands on the entry (r, 512). -/

/-- A fold of steps that each leave the entry at i alone leaves it alone. -/
theorem foldl_keep {ι β γ : Type} (g : (β → γ) → ι → (β → γ)) (i : β) (L : List ι) (x : β → γ)
    (h : ∀ n ∈ L, ∀ r, g r n i = r i) : L.foldl g x i = x i := by
  induction L generalizing x with
  | nil => rfl
  | cons n L ih =>
    rw [List.foldl_cons, ih _ (fun m hm r => h m (List.mem_cons_of_mem _ hm) r), h n List.mem_cons_self]

/-- A fold of steps that each leave the entry at i alone or set it to c keeps the value c there. -/
theorem foldl_stay {ι β γ : Type} (g : (β → γ) → ι → (β → γ)) (i : β) (c : γ)
    (hstep : ∀ n r, g r n i = r i ∨ g r n i = c) (L : List ι) (y : β → γ) (hy : y i = c) : L.foldl g y i = c := by
  induction L generalizing y with
  | nil => exact hy
  | cons n L ih =>
    rw [List.foldl_cons]
    refine ih _ ?_
    rcases hstep n y with h | h
    · rw [h, hy]
    · exact h

/-- Such a fold with one step that sets the entry at i to c ends with c there. -/
theorem foldl_set {ι β γ : Type} (g : (β → γ) → ι → (β → γ)) (i : β) (c : γ)
    (hstep : ∀ n r, g r n i = r i ∨ g r n i = c) (L : List ι) (x : β → γ)
    (hhit : ∃ n ∈ L, ∀ r, g r n i = c) : L.foldl g x i = c := by
  induction L generalizing x with
  | nil =>
    obtain ⟨n, hn, _⟩ := hhit
    exact absurd hn List.not_mem_nil
  | cons n L ih =>
    rw [List.foldl_cons]
    obtain ⟨m, hm, hc⟩ := hhit
    rcases List.mem_cons.mp hm with rfl | hm'
    · exact foldl_stay g i c hstep L _ (hc x)
    · exact ih _ ⟨m, hm', hc⟩

/-- The one scatter index is the column 512 wherever it is read. -/
theorem v2_eq (i : S1.Idx) : val_main_v2 (F := Ideal) i = 512#32 :=
  (val_main_v2_apply i).trans (val_main_c_apply _)

/-- Every update is one. -/
theorem v3_eq (i : S65536.Idx) : val_main_v3 (F := Ideal) i = (1 : EReal) :=
  (val_main_v3_apply i).trans ((val_main_cst_0_apply _).trans Ideal.ofBits_one_f32)

/-- The array written into is zero everywhere. -/
theorem v1_eq (i : S65536x513.Idx) : val_main_v1 (F := Ideal) i = (0 : EReal) :=
  (val_main_v1_apply i).trans ((val_main_cst_apply _).trans Ideal.ofBits_zero_f32)

/-- On the column axis, the one the scatter index names, the window starts at 512. -/
theorem scat_start_col (j : S65536.Idx) :
    scatter_S65536x513_S1_S65536_0_1_1_0.start j (val_main_v2 (F := Ideal)) 1 = 512 := by
  unfold ScatterDims.start
  rw [dif_pos (show (1 : Fin S65536x513.rank) ∈ scatter_S65536x513_S1_S65536_0_1_1_0.scatterDimsToOperandDims by decide), v2_eq]
  decide

/-- On the row axis, which the scatter index does not name, the window starts at 0. -/
theorem scat_start_row (j : S65536.Idx) :
    scatter_S65536x513_S1_S65536_0_1_1_0.start j (val_main_v2 (F := Ideal)) 0 = 0 := by
  unfold ScatterDims.start
  rw [dif_neg (show ¬ (0 : Fin S65536x513.rank) ∈ scatter_S65536x513_S1_S65536_0_1_1_0.scatterDimsToOperandDims by decide)]

/-- The row axis carries the updates' one axis: its window coordinate is the update's position. -/
theorem scat_window_row (j : S65536.Idx) : scatter_S65536x513_S1_S65536_0_1_1_0.window j 0 = (j 0).val := rfl

/-- The column axis is an inserted axis: its window coordinate is 0. -/
theorem scat_window_col (j : S65536.Idx) : scatter_S65536x513_S1_S65536_0_1_1_0.window j 1 = 0 := rfl

/-- Update j lands on the entry (j, 512). -/
theorem scat_resultIdx (j : S65536.Idx) :
    scatter_S65536x513_S1_S65536_0_1_1_0.resultIdx? j (val_main_v2 (F := Ideal)) = some (ix2 (j 0) Mlp.last) := by
  have hs0 := scat_start_row j
  have hs1 := scat_start_col j
  have hw0 := scat_window_row j
  have hw1 := scat_window_col j
  unfold ScatterDims.resultIdx?
  have hin : ∀ a : Fin S65536x513.rank,
      0 ≤ scatter_S65536x513_S1_S65536_0_1_1_0.start j (val_main_v2 (F := Ideal)) a + scatter_S65536x513_S1_S65536_0_1_1_0.window j a
      ∧ scatter_S65536x513_S1_S65536_0_1_1_0.start j (val_main_v2 (F := Ideal)) a + scatter_S65536x513_S1_S65536_0_1_1_0.window j a
          < S65536x513.size a := by
    intro a
    match a with
    | ⟨0, _⟩ =>
      show 0 ≤ scatter_S65536x513_S1_S65536_0_1_1_0.start j (val_main_v2 (F := Ideal)) 0 + scatter_S65536x513_S1_S65536_0_1_1_0.window j 0
        ∧ scatter_S65536x513_S1_S65536_0_1_1_0.start j (val_main_v2 (F := Ideal)) 0 + scatter_S65536x513_S1_S65536_0_1_1_0.window j 0 < ((65536 : Nat) : Int)
      rw [hs0, hw0]
      have hj : (j 0).val < 65536 := (j 0).isLt
      constructor <;> omega
    | ⟨1, _⟩ =>
      show 0 ≤ scatter_S65536x513_S1_S65536_0_1_1_0.start j (val_main_v2 (F := Ideal)) 1 + scatter_S65536x513_S1_S65536_0_1_1_0.window j 1
        ∧ scatter_S65536x513_S1_S65536_0_1_1_0.start j (val_main_v2 (F := Ideal)) 1 + scatter_S65536x513_S1_S65536_0_1_1_0.window j 1 < ((513 : Nat) : Int)
      rw [hs1, hw1]
      constructor <;> omega
  rw [dif_pos hin]
  congr 1
  funext a
  refine Fin.ext ?_
  match a with
  | ⟨0, _⟩ =>
    show (scatter_S65536x513_S1_S65536_0_1_1_0.start j (val_main_v2 (F := Ideal)) 0 + scatter_S65536x513_S1_S65536_0_1_1_0.window j 0).toNat = (j 0).val
    rw [hs0, hw0]
    omega
  | ⟨1, _⟩ =>
    show (scatter_S65536x513_S1_S65536_0_1_1_0.start j (val_main_v2 (F := Ideal)) 1 + scatter_S65536x513_S1_S65536_0_1_1_0.window j 1).toNat = 512
    rw [hs1, hw1]
    omega

/-- The scattered array at (b, k): one in column 512, zero elsewhere. -/
theorem v4_eq (b : Fin 65536) (k : Fin 513) : val_main_v4 (F := Ideal) (ix2 b k) = Mlp.erow k := by
  unfold val_main_v4 Host.scatter Mlp.erow
  simp only [scat_resultIdx]
  by_cases hk : k.val = 512
  · rw [if_pos hk]
    have hkl : k = Mlp.last := Fin.ext hk
    subst hkl
    refine foldl_set _ (ix2 b Mlp.last) (1 : EReal) (fun n r => ?_) _ _ ⟨S65536.rowMajor (ix1 b), List.mem_finRange _, fun r => ?_⟩
    · by_cases he : (ix2 b Mlp.last : S65536x513.Idx) = ix2 ((S65536.rowMajor.symm n) 0) Mlp.last
      · exact Or.inr ((if_pos he).trans (v3_eq _))
      · exact Or.inl (if_neg he)
    · rw [Equiv.symm_apply_apply]
      exact (if_pos rfl).trans (v3_eq _)
  · rw [if_neg hk]
    refine (foldl_keep _ (ix2 b k) _ _ (fun n _ r => ?_)).trans (v1_eq _)
    refine if_neg (fun he => hk ?_)
    exact congrArg (fun f : S65536x513.Idx => (f 1).val) he

/-! ## The layers -/

variable (x0 x1 : (⟨S65536x256, .f32⟩ : BufTy).Contents (Elt Ideal)) (x2 : (⟨S65536x1, .f32⟩ : BufTy).Contents (Elt Ideal)) (x3 : (⟨S513x1024, .f32⟩ : BufTy).Contents (Elt Ideal)) (x4 : (⟨S1024, .f32⟩ : BufTy).Contents (Elt Ideal))
  (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal))
  (x9 : (⟨S1024x256, .f32⟩ : BufTy).Contents (Elt Ideal)) (x10 : (⟨S256, .f32⟩ : BufTy).Contents (Elt Ideal)) (b : Fin 65536)

/-- A choice on the sign of a pre-activation, its operands given by earlier stages, is the gate. -/
theorem gate_of (p' p p0 d' d z : EReal) (hp : p' = p) (hp0 : p0 = 0) (hd : d' = d) (hz : z = 0) :
    Scalar.select (FloatOps.cmpf (F := Ideal) (φ := .f32) .ogt p' p0) d' z = Mlp.gate p d := by
  subst hp hp0 hd hz
  exact select_gt_zero _ _

/-! ### The first layer -/

/-- The concatenated rows times the first weight matrix, at (b, j). -/
theorem v5_eq (j : Fin 1024) :
    val_main_v5 (F := Ideal) x0 x1 x2 x3 (ix2 b j) = Mlp.lin (Mlp.zrow (Mlp.rowOf x0 b) (Mlp.rowOf x1 b) (Mlp.colOf x2 b)) (Mlp.paramsOf x3 x4 x5 x6 x7 x8 x9 x10).W1 j := by
  refine (val_main_v5_apply x0 x1 x2 x3 (ix2 b j)).trans ?_
  unfold Mlp.lin
  refine Finset.sum_congr rfl fun k _ => ?_
  have el : lidx_main_v5 (ix2 b j) k = ix2 b k := funext fun a => Fin.ext (by match a with | ⟨0, _⟩ => rfl | ⟨1, _⟩ => rfl)
  have er : ridx_main_v5 (ix2 b j) k = ix2 k j := funext fun a => Fin.ext (by match a with | ⟨0, _⟩ => rfl | ⟨1, _⟩ => rfl)
  have h : val_main_v0 (F := Ideal) x0 x1 x2 (lidx_main_v5 (ix2 b j) k) * x3 (ridx_main_v5 (ix2 b j) k)
      = (Mlp.zrow (Mlp.rowOf x0 b) (Mlp.rowOf x1 b) (Mlp.colOf x2 b)) k * x3 (ix2 k j) := by
    rw [el, er, v0_eq]
  exact h

/-- The unit rows times the first weight matrix, at (b, j). -/
theorem v6_eq (j : Fin 1024) :
    val_main_v6 (F := Ideal) x3 (ix2 b j) = Mlp.lin Mlp.erow (Mlp.paramsOf x3 x4 x5 x6 x7 x8 x9 x10).W1 j := by
  refine (val_main_v6_apply x3 (ix2 b j)).trans ?_
  unfold Mlp.lin
  refine Finset.sum_congr rfl fun k _ => ?_
  have el : lidx_main_v6 (ix2 b j) k = ix2 b k := funext fun a => Fin.ext (by match a with | ⟨0, _⟩ => rfl | ⟨1, _⟩ => rfl)
  have er : ridx_main_v6 (ix2 b j) k = ix2 k j := funext fun a => Fin.ext (by match a with | ⟨0, _⟩ => rfl | ⟨1, _⟩ => rfl)
  have h : val_main_v4 (F := Ideal) (lidx_main_v6 (ix2 b j) k) * x3 (ridx_main_v6 (ix2 b j) k)
      = Mlp.erow k * x3 (ix2 k j) := by
    rw [el, er, v4_eq]
  exact h

/-- The first bias broadcast along the rows, at (b, j). -/
theorem v8_eq (j : Fin 1024) : val_main_v8 (F := Ideal) x4 (ix2 b j) = x4 (ix1 j) := by
  refine (val_main_v8_apply x4 (ix2 b j)).trans ((val_main_v7_apply x4 _).trans ?_)
  exact congrArg x4 (funext fun a => Fin.ext (by match a with | ⟨0, _⟩ => rfl))

/-- The first pre-activation. -/
theorem v9_eq (j : Fin 1024) :
    val_main_v9 (F := Ideal) x0 x1 x2 x3 x4 (ix2 b j) = Mlp.pre1R (Mlp.paramsOf x3 x4 x5 x6 x7 x8 x9 x10) (Mlp.rowOf x0 b) (Mlp.rowOf x1 b) (Mlp.colOf x2 b) j :=
  (val_main_v9_apply x0 x1 x2 x3 x4 (ix2 b j)).trans
    (congrArg₂ (fun u v : EReal => u + v) (v5_eq x0 x1 x2 x3 x4 x5 x6 x7 x8 x9 x10 b j) (v8_eq x4 b j))

/-- The zero the first rectifier compares with. -/
theorem call0_v0_eq (i : S65536x1024.Idx) : val_main_call0_v0 (F := Ideal) i = (0 : EReal) :=
  (val_main_call0_v0_apply i).trans ((val_main_call0_cst_apply _).trans Ideal.ofBits_zero_f32)

/-- The first rectifier: the maximum of the pre-activation and zero. -/
theorem v10_eq (j : Fin 1024) :
    val_main_v10 (F := Ideal) x0 x1 x2 x3 x4 (ix2 b j) = Mlp.h1R (Mlp.paramsOf x3 x4 x5 x6 x7 x8 x9 x10) (Mlp.rowOf x0 b) (Mlp.rowOf x1 b) (Mlp.colOf x2 b) j :=
  (val_main_v10_apply x0 x1 x2 x3 x4 (ix2 b j)).trans
    (congrArg₂ (fun u v : EReal => max u v) (v9_eq x0 x1 x2 x3 x4 x5 x6 x7 x8 x9 x10 b j) (call0_v0_eq (ix2 b j)))

/-- The zero the first gate compares with. -/
theorem v11_eq (i : S65536x1024.Idx) : val_main_v11 (F := Ideal) i = (0 : EReal) :=
  (val_main_v11_apply i).trans ((val_main_cst_1_apply _).trans Ideal.ofBits_zero_f32)

/-- The zero the first gate writes where it is closed. -/
theorem v13_eq (i : S65536x1024.Idx) : val_main_v13 (F := Ideal) i = (0 : EReal) :=
  (val_main_v13_apply i).trans ((val_main_cst_2_apply _).trans Ideal.ofBits_zero_f32)

/-- The first gate: row 512 of the first weight matrix where the pre-activation is positive. -/
theorem v14_eq (j : Fin 1024) :
    val_main_v14 (F := Ideal) x0 x1 x2 x3 x4 (ix2 b j) = Mlp.d1R (Mlp.paramsOf x3 x4 x5 x6 x7 x8 x9 x10) (Mlp.rowOf x0 b) (Mlp.rowOf x1 b) (Mlp.colOf x2 b) j :=
  gate_of (val_main_v9 (F := Ideal) x0 x1 x2 x3 x4 (ix2 b j)) _ (val_main_v11 (F := Ideal) (ix2 b j))
    (val_main_v6 (F := Ideal) x3 (ix2 b j)) _ (val_main_v13 (F := Ideal) (ix2 b j))
    (v9_eq x0 x1 x2 x3 x4 x5 x6 x7 x8 x9 x10 b j) (v11_eq (ix2 b j)) (v6_eq x3 x4 x5 x6 x7 x8 x9 x10 b j) (v13_eq (ix2 b j))

/-! ### The second layer -/

/-- The first hidden rows times the second weight matrix. -/
theorem v15_eq (j : Fin 1024) :
    val_main_v15 (F := Ideal) x0 x1 x2 x3 x4 x5 (ix2 b j) = Mlp.lin (Mlp.h1R (Mlp.paramsOf x3 x4 x5 x6 x7 x8 x9 x10) (Mlp.rowOf x0 b) (Mlp.rowOf x1 b) (Mlp.colOf x2 b)) (Mlp.paramsOf x3 x4 x5 x6 x7 x8 x9 x10).W2 j := by
  refine (val_main_v15_apply x0 x1 x2 x3 x4 x5 (ix2 b j)).trans ?_
  unfold Mlp.lin
  refine Finset.sum_congr rfl fun k _ => ?_
  have el : lidx_main_v15 (ix2 b j) k = ix2 b k := funext fun a => Fin.ext (by match a with | ⟨0, _⟩ => rfl | ⟨1, _⟩ => rfl)
  have er : ridx_main_v15 (ix2 b j) k = ix2 k j := funext fun a => Fin.ext (by match a with | ⟨0, _⟩ => rfl | ⟨1, _⟩ => rfl)
  have h : val_main_v10 (F := Ideal) x0 x1 x2 x3 x4 (lidx_main_v15 (ix2 b j) k) * x5 (ridx_main_v15 (ix2 b j) k)
      = (Mlp.h1R (Mlp.paramsOf x3 x4 x5 x6 x7 x8 x9 x10) (Mlp.rowOf x0 b) (Mlp.rowOf x1 b) (Mlp.colOf x2 b)) k * x5 (ix2 k j) := by
    rw [el, er, v10_eq x0 x1 x2 x3 x4 x5 x6 x7 x8 x9 x10 b]
  exact h

/-- The first gated derivative rows times the second weight matrix. -/
theorem v16_eq (j : Fin 1024) :
    val_main_v16 (F := Ideal) x0 x1 x2 x3 x4 x5 (ix2 b j) = Mlp.lin (Mlp.d1R (Mlp.paramsOf x3 x4 x5 x6 x7 x8 x9 x10) (Mlp.rowOf x0 b) (Mlp.rowOf x1 b) (Mlp.colOf x2 b)) (Mlp.paramsOf x3 x4 x5 x6 x7 x8 x9 x10).W2 j := by
  refine (val_main_v16_apply x0 x1 x2 x3 x4 x5 (ix2 b j)).trans ?_
  unfold Mlp.lin
  refine Finset.sum_congr rfl fun k _ => ?_
  have el : lidx_main_v16 (ix2 b j) k = ix2 b k := funext fun a => Fin.ext (by match a with | ⟨0, _⟩ => rfl | ⟨1, _⟩ => rfl)
  have er : ridx_main_v16 (ix2 b j) k = ix2 k j := funext fun a => Fin.ext (by match a with | ⟨0, _⟩ => rfl | ⟨1, _⟩ => rfl)
  have h : val_main_v14 (F := Ideal) x0 x1 x2 x3 x4 (lidx_main_v16 (ix2 b j) k) * x5 (ridx_main_v16 (ix2 b j) k)
      = (Mlp.d1R (Mlp.paramsOf x3 x4 x5 x6 x7 x8 x9 x10) (Mlp.rowOf x0 b) (Mlp.rowOf x1 b) (Mlp.colOf x2 b)) k * x5 (ix2 k j) := by
    rw [el, er, v14_eq x0 x1 x2 x3 x4 x5 x6 x7 x8 x9 x10 b]
  exact h

/-- The second bias broadcast along the rows. -/
theorem v18_eq (j : Fin 1024) : val_main_v18 (F := Ideal) x6 (ix2 b j) = x6 (ix1 j) := by
  refine (val_main_v18_apply x6 (ix2 b j)).trans ((val_main_v17_apply x6 _).trans ?_)
  exact congrArg x6 (funext fun a => Fin.ext (by match a with | ⟨0, _⟩ => rfl))

/-- The second pre-activation. -/
theorem v19_eq (j : Fin 1024) :
    val_main_v19 (F := Ideal) x0 x1 x2 x3 x4 x5 x6 (ix2 b j) = Mlp.pre2R (Mlp.paramsOf x3 x4 x5 x6 x7 x8 x9 x10) (Mlp.rowOf x0 b) (Mlp.rowOf x1 b) (Mlp.colOf x2 b) j :=
  (val_main_v19_apply x0 x1 x2 x3 x4 x5 x6 (ix2 b j)).trans
    (congrArg₂ (fun u v : EReal => u + v) (v15_eq x0 x1 x2 x3 x4 x5 x6 x7 x8 x9 x10 b j) (v18_eq x6 b j))

/-- The zero the second rectifier compares with. -/
theorem call1_v0_eq (i : S65536x1024.Idx) : val_main_call1_v0 (F := Ideal) i = (0 : EReal) :=
  (val_main_call1_v0_apply i).trans ((val_main_call1_cst_apply _).trans Ideal.ofBits_zero_f32)

/-- The second rectifier. -/
theorem v20_eq (j : Fin 1024) :
    val_main_v20 (F := Ideal) x0 x1 x2 x3 x4 x5 x6 (ix2 b j) = Mlp.h2R (Mlp.paramsOf x3 x4 x5 x6 x7 x8 x9 x10) (Mlp.rowOf x0 b) (Mlp.rowOf x1 b) (Mlp.colOf x2 b) j :=
  (val_main_v20_apply x0 x1 x2 x3 x4 x5 x6 (ix2 b j)).trans
    (congrArg₂ (fun u v : EReal => max u v) (v19_eq x0 x1 x2 x3 x4 x5 x6 x7 x8 x9 x10 b j) (call1_v0_eq (ix2 b j)))

/-- The zero the second gate compares with. -/
theorem v21_eq (i : S65536x1024.Idx) : val_main_v21 (F := Ideal) i = (0 : EReal) :=
  (val_main_v21_apply i).trans ((val_main_cst_3_apply _).trans Ideal.ofBits_zero_f32)

/-- The zero the second gate writes where it is closed. -/
theorem v23_eq (i : S65536x1024.Idx) : val_main_v23 (F := Ideal) i = (0 : EReal) :=
  (val_main_v23_apply i).trans ((val_main_cst_4_apply _).trans Ideal.ofBits_zero_f32)

/-- The second gate. -/
theorem v24_eq (j : Fin 1024) :
    val_main_v24 (F := Ideal) x0 x1 x2 x3 x4 x5 x6 (ix2 b j) = Mlp.d2R (Mlp.paramsOf x3 x4 x5 x6 x7 x8 x9 x10) (Mlp.rowOf x0 b) (Mlp.rowOf x1 b) (Mlp.colOf x2 b) j :=
  gate_of (val_main_v19 (F := Ideal) x0 x1 x2 x3 x4 x5 x6 (ix2 b j)) _ (val_main_v21 (F := Ideal) (ix2 b j))
    (val_main_v16 (F := Ideal) x0 x1 x2 x3 x4 x5 (ix2 b j)) _ (val_main_v23 (F := Ideal) (ix2 b j))
    (v19_eq x0 x1 x2 x3 x4 x5 x6 x7 x8 x9 x10 b j) (v21_eq (ix2 b j)) (v16_eq x0 x1 x2 x3 x4 x5 x6 x7 x8 x9 x10 b j) (v23_eq (ix2 b j))

/-! ### The third layer -/

/-- The second hidden rows times the third weight matrix. -/
theorem v25_eq (j : Fin 1024) :
    val_main_v25 (F := Ideal) x0 x1 x2 x3 x4 x5 x6 x7 (ix2 b j) = Mlp.lin (Mlp.h2R (Mlp.paramsOf x3 x4 x5 x6 x7 x8 x9 x10) (Mlp.rowOf x0 b) (Mlp.rowOf x1 b) (Mlp.colOf x2 b)) (Mlp.paramsOf x3 x4 x5 x6 x7 x8 x9 x10).W3 j := by
  refine (val_main_v25_apply x0 x1 x2 x3 x4 x5 x6 x7 (ix2 b j)).trans ?_
  unfold Mlp.lin
  refine Finset.sum_congr rfl fun k _ => ?_
  have el : lidx_main_v25 (ix2 b j) k = ix2 b k := funext fun a => Fin.ext (by match a with | ⟨0, _⟩ => rfl | ⟨1, _⟩ => rfl)
  have er : ridx_main_v25 (ix2 b j) k = ix2 k j := funext fun a => Fin.ext (by match a with | ⟨0, _⟩ => rfl | ⟨1, _⟩ => rfl)
  have h : val_main_v20 (F := Ideal) x0 x1 x2 x3 x4 x5 x6 (lidx_main_v25 (ix2 b j) k) * x7 (ridx_main_v25 (ix2 b j) k)
      = (Mlp.h2R (Mlp.paramsOf x3 x4 x5 x6 x7 x8 x9 x10) (Mlp.rowOf x0 b) (Mlp.rowOf x1 b) (Mlp.colOf x2 b)) k * x7 (ix2 k j) := by
    rw [el, er, v20_eq x0 x1 x2 x3 x4 x5 x6 x7 x8 x9 x10 b]
  exact h

/-- The second gated derivative rows times the third weight matrix. -/
theorem v26_eq (j : Fin 1024) :
    val_main_v26 (F := Ideal) x0 x1 x2 x3 x4 x5 x6 x7 (ix2 b j) = Mlp.lin (Mlp.d2R (Mlp.paramsOf x3 x4 x5 x6 x7 x8 x9 x10) (Mlp.rowOf x0 b) (Mlp.rowOf x1 b) (Mlp.colOf x2 b)) (Mlp.paramsOf x3 x4 x5 x6 x7 x8 x9 x10).W3 j := by
  refine (val_main_v26_apply x0 x1 x2 x3 x4 x5 x6 x7 (ix2 b j)).trans ?_
  unfold Mlp.lin
  refine Finset.sum_congr rfl fun k _ => ?_
  have el : lidx_main_v26 (ix2 b j) k = ix2 b k := funext fun a => Fin.ext (by match a with | ⟨0, _⟩ => rfl | ⟨1, _⟩ => rfl)
  have er : ridx_main_v26 (ix2 b j) k = ix2 k j := funext fun a => Fin.ext (by match a with | ⟨0, _⟩ => rfl | ⟨1, _⟩ => rfl)
  have h : val_main_v24 (F := Ideal) x0 x1 x2 x3 x4 x5 x6 (lidx_main_v26 (ix2 b j) k) * x7 (ridx_main_v26 (ix2 b j) k)
      = (Mlp.d2R (Mlp.paramsOf x3 x4 x5 x6 x7 x8 x9 x10) (Mlp.rowOf x0 b) (Mlp.rowOf x1 b) (Mlp.colOf x2 b)) k * x7 (ix2 k j) := by
    rw [el, er, v24_eq x0 x1 x2 x3 x4 x5 x6 x7 x8 x9 x10 b]
  exact h

/-- The third bias broadcast along the rows. -/
theorem v28_eq (j : Fin 1024) : val_main_v28 (F := Ideal) x8 (ix2 b j) = x8 (ix1 j) := by
  refine (val_main_v28_apply x8 (ix2 b j)).trans ((val_main_v27_apply x8 _).trans ?_)
  exact congrArg x8 (funext fun a => Fin.ext (by match a with | ⟨0, _⟩ => rfl))

/-- The third pre-activation. -/
theorem v29_eq (j : Fin 1024) :
    val_main_v29 (F := Ideal) x0 x1 x2 x3 x4 x5 x6 x7 x8 (ix2 b j) = Mlp.pre3R (Mlp.paramsOf x3 x4 x5 x6 x7 x8 x9 x10) (Mlp.rowOf x0 b) (Mlp.rowOf x1 b) (Mlp.colOf x2 b) j :=
  (val_main_v29_apply x0 x1 x2 x3 x4 x5 x6 x7 x8 (ix2 b j)).trans
    (congrArg₂ (fun u v : EReal => u + v) (v25_eq x0 x1 x2 x3 x4 x5 x6 x7 x8 x9 x10 b j) (v28_eq x8 b j))

/-- The zero the third rectifier compares with. -/
theorem call2_v0_eq (i : S65536x1024.Idx) : val_main_call2_v0 (F := Ideal) i = (0 : EReal) :=
  (val_main_call2_v0_apply i).trans ((val_main_call2_cst_apply _).trans Ideal.ofBits_zero_f32)

/-- The third rectifier. -/
theorem v30_eq (j : Fin 1024) :
    val_main_v30 (F := Ideal) x0 x1 x2 x3 x4 x5 x6 x7 x8 (ix2 b j) = Mlp.h3R (Mlp.paramsOf x3 x4 x5 x6 x7 x8 x9 x10) (Mlp.rowOf x0 b) (Mlp.rowOf x1 b) (Mlp.colOf x2 b) j :=
  (val_main_v30_apply x0 x1 x2 x3 x4 x5 x6 x7 x8 (ix2 b j)).trans
    (congrArg₂ (fun u v : EReal => max u v) (v29_eq x0 x1 x2 x3 x4 x5 x6 x7 x8 x9 x10 b j) (call2_v0_eq (ix2 b j)))

/-- The zero the third gate compares with. -/
theorem v31_eq (i : S65536x1024.Idx) : val_main_v31 (F := Ideal) i = (0 : EReal) :=
  (val_main_v31_apply i).trans ((val_main_cst_5_apply _).trans Ideal.ofBits_zero_f32)

/-- The zero the third gate writes where it is closed. -/
theorem v33_eq (i : S65536x1024.Idx) : val_main_v33 (F := Ideal) i = (0 : EReal) :=
  (val_main_v33_apply i).trans ((val_main_cst_6_apply _).trans Ideal.ofBits_zero_f32)

/-- The third gate. -/
theorem v34_eq (j : Fin 1024) :
    val_main_v34 (F := Ideal) x0 x1 x2 x3 x4 x5 x6 x7 x8 (ix2 b j) = Mlp.d3R (Mlp.paramsOf x3 x4 x5 x6 x7 x8 x9 x10) (Mlp.rowOf x0 b) (Mlp.rowOf x1 b) (Mlp.colOf x2 b) j :=
  gate_of (val_main_v29 (F := Ideal) x0 x1 x2 x3 x4 x5 x6 x7 x8 (ix2 b j)) _ (val_main_v31 (F := Ideal) (ix2 b j))
    (val_main_v26 (F := Ideal) x0 x1 x2 x3 x4 x5 x6 x7 (ix2 b j)) _ (val_main_v33 (F := Ideal) (ix2 b j))
    (v29_eq x0 x1 x2 x3 x4 x5 x6 x7 x8 x9 x10 b j) (v31_eq (ix2 b j)) (v26_eq x0 x1 x2 x3 x4 x5 x6 x7 x8 x9 x10 b j) (v33_eq (ix2 b j))

/-! ### The fourth layer -/

/-- The third hidden rows times the fourth weight matrix. -/
theorem v35_eq (q : Fin 256) :
    val_main_v35 (F := Ideal) x0 x1 x2 x3 x4 x5 x6 x7 x8 x9 (ix2 b q) = Mlp.lin (Mlp.h3R (Mlp.paramsOf x3 x4 x5 x6 x7 x8 x9 x10) (Mlp.rowOf x0 b) (Mlp.rowOf x1 b) (Mlp.colOf x2 b)) (Mlp.paramsOf x3 x4 x5 x6 x7 x8 x9 x10).W4 q := by
  refine (val_main_v35_apply x0 x1 x2 x3 x4 x5 x6 x7 x8 x9 (ix2 b q)).trans ?_
  unfold Mlp.lin
  refine Finset.sum_congr rfl fun k _ => ?_
  have el : lidx_main_v35 (ix2 b q) k = ix2 b k := funext fun a => Fin.ext (by match a with | ⟨0, _⟩ => rfl | ⟨1, _⟩ => rfl)
  have er : ridx_main_v35 (ix2 b q) k = ix2 k q := funext fun a => Fin.ext (by match a with | ⟨0, _⟩ => rfl | ⟨1, _⟩ => rfl)
  have h : val_main_v30 (F := Ideal) x0 x1 x2 x3 x4 x5 x6 x7 x8 (lidx_main_v35 (ix2 b q) k) * x9 (ridx_main_v35 (ix2 b q) k)
      = (Mlp.h3R (Mlp.paramsOf x3 x4 x5 x6 x7 x8 x9 x10) (Mlp.rowOf x0 b) (Mlp.rowOf x1 b) (Mlp.colOf x2 b)) k * x9 (ix2 k q) := by
    rw [el, er, v30_eq x0 x1 x2 x3 x4 x5 x6 x7 x8 x9 x10 b]
  exact h

/-- The third gated derivative rows times the fourth weight matrix: the derivative of the network's value. -/
theorem v36_eq (q : Fin 256) :
    val_main_v36 (F := Ideal) x0 x1 x2 x3 x4 x5 x6 x7 x8 x9 (ix2 b q) = Mlp.lin (Mlp.d3R (Mlp.paramsOf x3 x4 x5 x6 x7 x8 x9 x10) (Mlp.rowOf x0 b) (Mlp.rowOf x1 b) (Mlp.colOf x2 b)) (Mlp.paramsOf x3 x4 x5 x6 x7 x8 x9 x10).W4 q := by
  refine (val_main_v36_apply x0 x1 x2 x3 x4 x5 x6 x7 x8 x9 (ix2 b q)).trans ?_
  unfold Mlp.lin
  refine Finset.sum_congr rfl fun k _ => ?_
  have el : lidx_main_v36 (ix2 b q) k = ix2 b k := funext fun a => Fin.ext (by match a with | ⟨0, _⟩ => rfl | ⟨1, _⟩ => rfl)
  have er : ridx_main_v36 (ix2 b q) k = ix2 k q := funext fun a => Fin.ext (by match a with | ⟨0, _⟩ => rfl | ⟨1, _⟩ => rfl)
  have h : val_main_v34 (F := Ideal) x0 x1 x2 x3 x4 x5 x6 x7 x8 (lidx_main_v36 (ix2 b q) k) * x9 (ridx_main_v36 (ix2 b q) k)
      = (Mlp.d3R (Mlp.paramsOf x3 x4 x5 x6 x7 x8 x9 x10) (Mlp.rowOf x0 b) (Mlp.rowOf x1 b) (Mlp.colOf x2 b)) k * x9 (ix2 k q) := by
    rw [el, er, v34_eq x0 x1 x2 x3 x4 x5 x6 x7 x8 x9 x10 b]
  exact h

/-- The fourth bias broadcast along the rows. -/
theorem v38_eq (q : Fin 256) : val_main_v38 (F := Ideal) x10 (ix2 b q) = x10 (ix1 q) := by
  refine (val_main_v38_apply x10 (ix2 b q)).trans ((val_main_v37_apply x10 _).trans ?_)
  exact congrArg x10 (funext fun a => Fin.ext (by match a with | ⟨0, _⟩ => rfl))

/-- The network's value. -/
theorem v39_eq (q : Fin 256) :
    val_main_v39 (F := Ideal) x0 x1 x2 x3 x4 x5 x6 x7 x8 x9 x10 (ix2 b q) = Mlp.fR (Mlp.paramsOf x3 x4 x5 x6 x7 x8 x9 x10) (Mlp.rowOf x0 b) (Mlp.rowOf x1 b) (Mlp.colOf x2 b) q :=
  (val_main_v39_apply x0 x1 x2 x3 x4 x5 x6 x7 x8 x9 x10 (ix2 b q)).trans
    (congrArg₂ (fun u v : EReal => u + v) (v35_eq x0 x1 x2 x3 x4 x5 x6 x7 x8 x9 x10 b q) (v38_eq x10 b q))

/-! ## The two results -/

/-- Entry (b, q) of an array broadcast from a column reads the column at (b, 0). -/
theorem col_idx (q : Fin 256) : idx_main_v42 (ix2 b q) = ix2 b 0 :=
  funext fun a => Fin.ext (by match a with | ⟨0, _⟩ => rfl | ⟨1, _⟩ => rfl)

/-- The constant one of the first result's factor 1 - t. -/
theorem v40_eq (i : S65536x1.Idx) : val_main_v40 (F := Ideal) i = (1 : EReal) :=
  (val_main_v40_apply i).trans ((val_main_cst_7_apply _).trans Ideal.ofBits_one_f32)

/-- The column 1 - t. -/
theorem v41_eq (i : S65536x1.Idx) : val_main_v41 (F := Ideal) x2 i = (1 : EReal) - x2 i :=
  (val_main_v41_apply x2 i).trans (congrArg (fun u : EReal => u - x2 i) (v40_eq i))

/-- The column 1 - t broadcast along the rows. -/
theorem v42_eq (q : Fin 256) : val_main_v42 (F := Ideal) x2 (ix2 b q) = (1 : EReal) - Mlp.colOf x2 b :=
  (val_main_v42_apply x2 (ix2 b q)).trans ((congrArg (val_main_v41 (F := Ideal) x2) (col_idx b q)).trans (v41_eq x2 (ix2 b 0)))

/-- The product (1 - t) x0. -/
theorem v43_eq (q : Fin 256) : val_main_v43 (F := Ideal) x0 x2 (ix2 b q) = ((1 : EReal) - Mlp.colOf x2 b) * Mlp.rowOf x0 b q :=
  (val_main_v43_apply x0 x2 (ix2 b q)).trans (congrArg (fun u : EReal => u * x0 (ix2 b q)) (v42_eq x2 b q))

/-- The time column broadcast along the rows. -/
theorem v44_eq (q : Fin 256) : val_main_v44 (F := Ideal) x2 (ix2 b q) = Mlp.colOf x2 b :=
  (val_main_v44_apply x2 (ix2 b q)).trans (congrArg x2 (col_idx b q))

/-- The product t x1. -/
theorem v45_eq (q : Fin 256) : val_main_v45 (F := Ideal) x1 x2 (ix2 b q) = Mlp.colOf x2 b * Mlp.rowOf x1 b q :=
  (val_main_v45_apply x1 x2 (ix2 b q)).trans (congrArg (fun u : EReal => u * x1 (ix2 b q)) (v44_eq x2 b q))

/-- The interpolation (1 - t) x0 + t x1. -/
theorem v46_eq (q : Fin 256) :
    val_main_v46 (F := Ideal) x0 x1 x2 (ix2 b q) = ((1 : EReal) - Mlp.colOf x2 b) * Mlp.rowOf x0 b q + Mlp.colOf x2 b * Mlp.rowOf x1 b q :=
  (val_main_v46_apply x0 x1 x2 (ix2 b q)).trans
    (congrArg₂ (fun u v : EReal => u + v) (v43_eq x0 x2 b q) (v45_eq x1 x2 b q))

/-- The constant one of the factor t (1 - t) of the first result. -/
theorem v47_eq (i : S65536x1.Idx) : val_main_v47 (F := Ideal) i = (1 : EReal) :=
  (val_main_v47_apply i).trans ((val_main_cst_8_apply _).trans Ideal.ofBits_one_f32)

/-- The column 1 - t of that factor. -/
theorem v48_eq (i : S65536x1.Idx) : val_main_v48 (F := Ideal) x2 i = (1 : EReal) - x2 i :=
  (val_main_v48_apply x2 i).trans (congrArg (fun u : EReal => u - x2 i) (v47_eq i))

/-- The column t (1 - t). -/
theorem v49_eq (i : S65536x1.Idx) : val_main_v49 (F := Ideal) x2 i = x2 i * ((1 : EReal) - x2 i) :=
  (val_main_v49_apply x2 i).trans (congrArg (fun u : EReal => x2 i * u) (v48_eq x2 i))

/-- The column t (1 - t) broadcast along the rows. -/
theorem v50_eq (q : Fin 256) : val_main_v50 (F := Ideal) x2 (ix2 b q) = Mlp.colOf x2 b * ((1 : EReal) - Mlp.colOf x2 b) :=
  (val_main_v50_apply x2 (ix2 b q)).trans ((congrArg (val_main_v49 (F := Ideal) x2) (col_idx b q)).trans (v49_eq x2 (ix2 b 0)))

/-- The product t (1 - t) f. -/
theorem v51_eq (q : Fin 256) :
    val_main_v51 (F := Ideal) x0 x1 x2 x3 x4 x5 x6 x7 x8 x9 x10 (ix2 b q) = (Mlp.colOf x2 b * ((1 : EReal) - Mlp.colOf x2 b)) * Mlp.fR (Mlp.paramsOf x3 x4 x5 x6 x7 x8 x9 x10) (Mlp.rowOf x0 b) (Mlp.rowOf x1 b) (Mlp.colOf x2 b) q :=
  (val_main_v51_apply x0 x1 x2 x3 x4 x5 x6 x7 x8 x9 x10 (ix2 b q)).trans
    (congrArg₂ (fun u v : EReal => u * v) (v50_eq x2 b q) (v39_eq x0 x1 x2 x3 x4 x5 x6 x7 x8 x9 x10 b q))

/-- The difference x1 - x0. -/
theorem v53_eq (q : Fin 256) : val_main_v53 (F := Ideal) x0 x1 (ix2 b q) = Mlp.rowOf x1 b q - Mlp.rowOf x0 b q :=
  val_main_v53_apply x0 x1 (ix2 b q)

/-- The constant one of the second result's factor 1 - t. -/
theorem v54_eq (i : S65536x1.Idx) : val_main_v54 (F := Ideal) i = (1 : EReal) :=
  (val_main_v54_apply i).trans ((val_main_cst_9_apply _).trans Ideal.ofBits_one_f32)

/-- The column 1 - t of the second result. -/
theorem v55_eq (i : S65536x1.Idx) : val_main_v55 (F := Ideal) x2 i = (1 : EReal) - x2 i :=
  (val_main_v55_apply x2 i).trans (congrArg (fun u : EReal => u - x2 i) (v54_eq i))

/-- That column broadcast along the rows. -/
theorem v56_eq (q : Fin 256) : val_main_v56 (F := Ideal) x2 (ix2 b q) = (1 : EReal) - Mlp.colOf x2 b :=
  (val_main_v56_apply x2 (ix2 b q)).trans ((congrArg (val_main_v55 (F := Ideal) x2) (col_idx b q)).trans (v55_eq x2 (ix2 b 0)))

/-- The product (1 - t) f. -/
theorem v57_eq (q : Fin 256) :
    val_main_v57 (F := Ideal) x0 x1 x2 x3 x4 x5 x6 x7 x8 x9 x10 (ix2 b q) = ((1 : EReal) - Mlp.colOf x2 b) * Mlp.fR (Mlp.paramsOf x3 x4 x5 x6 x7 x8 x9 x10) (Mlp.rowOf x0 b) (Mlp.rowOf x1 b) (Mlp.colOf x2 b) q :=
  (val_main_v57_apply x0 x1 x2 x3 x4 x5 x6 x7 x8 x9 x10 (ix2 b q)).trans
    (congrArg₂ (fun u v : EReal => u * v) (v56_eq x2 b q) (v39_eq x0 x1 x2 x3 x4 x5 x6 x7 x8 x9 x10 b q))

/-- The sum (x1 - x0) + (1 - t) f. -/
theorem v58_eq (q : Fin 256) :
    val_main_v58 (F := Ideal) x0 x1 x2 x3 x4 x5 x6 x7 x8 x9 x10 (ix2 b q)
      = (Mlp.rowOf x1 b q - Mlp.rowOf x0 b q) + ((1 : EReal) - Mlp.colOf x2 b) * Mlp.fR (Mlp.paramsOf x3 x4 x5 x6 x7 x8 x9 x10) (Mlp.rowOf x0 b) (Mlp.rowOf x1 b) (Mlp.colOf x2 b) q :=
  (val_main_v58_apply x0 x1 x2 x3 x4 x5 x6 x7 x8 x9 x10 (ix2 b q)).trans
    (congrArg₂ (fun u v : EReal => u + v) (v53_eq x0 x1 b q) (v57_eq x0 x1 x2 x3 x4 x5 x6 x7 x8 x9 x10 b q))

/-- The time column broadcast along the rows, once more. -/
theorem v59_eq (q : Fin 256) : val_main_v59 (F := Ideal) x2 (ix2 b q) = Mlp.colOf x2 b :=
  (val_main_v59_apply x2 (ix2 b q)).trans (congrArg x2 (col_idx b q))

/-- The product t f. -/
theorem v60_eq (q : Fin 256) :
    val_main_v60 (F := Ideal) x0 x1 x2 x3 x4 x5 x6 x7 x8 x9 x10 (ix2 b q) = Mlp.colOf x2 b * Mlp.fR (Mlp.paramsOf x3 x4 x5 x6 x7 x8 x9 x10) (Mlp.rowOf x0 b) (Mlp.rowOf x1 b) (Mlp.colOf x2 b) q :=
  (val_main_v60_apply x0 x1 x2 x3 x4 x5 x6 x7 x8 x9 x10 (ix2 b q)).trans
    (congrArg₂ (fun u v : EReal => u * v) (v59_eq x2 b q) (v39_eq x0 x1 x2 x3 x4 x5 x6 x7 x8 x9 x10 b q))

/-- The difference ((x1 - x0) + (1 - t) f) - t f. -/
theorem v61_eq (q : Fin 256) :
    val_main_v61 (F := Ideal) x0 x1 x2 x3 x4 x5 x6 x7 x8 x9 x10 (ix2 b q)
      = ((Mlp.rowOf x1 b q - Mlp.rowOf x0 b q) + ((1 : EReal) - Mlp.colOf x2 b) * Mlp.fR (Mlp.paramsOf x3 x4 x5 x6 x7 x8 x9 x10) (Mlp.rowOf x0 b) (Mlp.rowOf x1 b) (Mlp.colOf x2 b) q) - Mlp.colOf x2 b * Mlp.fR (Mlp.paramsOf x3 x4 x5 x6 x7 x8 x9 x10) (Mlp.rowOf x0 b) (Mlp.rowOf x1 b) (Mlp.colOf x2 b) q :=
  (val_main_v61_apply x0 x1 x2 x3 x4 x5 x6 x7 x8 x9 x10 (ix2 b q)).trans
    (congrArg₂ (fun u v : EReal => u - v) (v58_eq x0 x1 x2 x3 x4 x5 x6 x7 x8 x9 x10 b q) (v60_eq x0 x1 x2 x3 x4 x5 x6 x7 x8 x9 x10 b q))

/-- The constant one of the factor t (1 - t) of the second result. -/
theorem v62_eq (i : S65536x1.Idx) : val_main_v62 (F := Ideal) i = (1 : EReal) :=
  (val_main_v62_apply i).trans ((val_main_cst_10_apply _).trans Ideal.ofBits_one_f32)

/-- The column 1 - t of that factor. -/
theorem v63_eq (i : S65536x1.Idx) : val_main_v63 (F := Ideal) x2 i = (1 : EReal) - x2 i :=
  (val_main_v63_apply x2 i).trans (congrArg (fun u : EReal => u - x2 i) (v62_eq i))

/-- The column t (1 - t) of the second result. -/
theorem v64_eq (i : S65536x1.Idx) : val_main_v64 (F := Ideal) x2 i = x2 i * ((1 : EReal) - x2 i) :=
  (val_main_v64_apply x2 i).trans (congrArg (fun u : EReal => x2 i * u) (v63_eq x2 i))

/-- That column broadcast along the rows. -/
theorem v65_eq (q : Fin 256) : val_main_v65 (F := Ideal) x2 (ix2 b q) = Mlp.colOf x2 b * ((1 : EReal) - Mlp.colOf x2 b) :=
  (val_main_v65_apply x2 (ix2 b q)).trans ((congrArg (val_main_v64 (F := Ideal) x2) (col_idx b q)).trans (v64_eq x2 (ix2 b 0)))

/-- The product t (1 - t) f', with f' the derivative of the network's value. -/
theorem v66_eq (q : Fin 256) :
    val_main_v66 (F := Ideal) x0 x1 x2 x3 x4 x5 x6 x7 x8 x9 (ix2 b q) = (Mlp.colOf x2 b * ((1 : EReal) - Mlp.colOf x2 b)) * Mlp.dfR (Mlp.paramsOf x3 x4 x5 x6 x7 x8 x9 x10) (Mlp.rowOf x0 b) (Mlp.rowOf x1 b) (Mlp.colOf x2 b) q :=
  (val_main_v66_apply x0 x1 x2 x3 x4 x5 x6 x7 x8 x9 (ix2 b q)).trans
    (congrArg₂ (fun u v : EReal => u * v) (v65_eq x2 b q) (v36_eq x0 x1 x2 x3 x4 x5 x6 x7 x8 x9 x10 b q))

/-- The first result of the reference program at (b, q) is the R form's first result for sample b. -/
theorem ref_xt (q : Fin 256) :
    val_main_v52 (F := Ideal) x0 x1 x2 x3 x4 x5 x6 x7 x8 x9 x10 (ix2 b q) = Mlp.xtR (Mlp.paramsOf x3 x4 x5 x6 x7 x8 x9 x10) (Mlp.rowOf x0 b) (Mlp.rowOf x1 b) (Mlp.colOf x2 b) q :=
  (val_main_v52_apply x0 x1 x2 x3 x4 x5 x6 x7 x8 x9 x10 (ix2 b q)).trans
    (congrArg₂ (fun u v : EReal => u + v) (v46_eq x0 x1 x2 b q) (v51_eq x0 x1 x2 x3 x4 x5 x6 x7 x8 x9 x10 b q))

/-- The second result of the reference program at (b, q) is the R form's second result for sample b. -/
theorem ref_dt (q : Fin 256) :
    val_main_v67 (F := Ideal) x0 x1 x2 x3 x4 x5 x6 x7 x8 x9 x10 (ix2 b q) = Mlp.dtR (Mlp.paramsOf x3 x4 x5 x6 x7 x8 x9 x10) (Mlp.rowOf x0 b) (Mlp.rowOf x1 b) (Mlp.colOf x2 b) q :=
  (val_main_v67_apply x0 x1 x2 x3 x4 x5 x6 x7 x8 x9 x10 (ix2 b q)).trans
    (congrArg₂ (fun u v : EReal => u + v) (v61_eq x0 x1 x2 x3 x4 x5 x6 x7 x8 x9 x10 b q) (v66_eq x0 x1 x2 x3 x4 x5 x6 x7 x8 x9 x10 b q))

end Cert.ReferenceIdeal.RefValue

end
-- ==== Proof.MlpAlgebra.lean ====
/-
  The two ways of writing the per-sample function agree.

  * The value `xt` agrees for all extended-real data: a sum over the 513 concatenated coordinates is the sum over the
    first 256, the next 256 and the last one; the unit row `e₅₁₂` times a matrix is row 512 of the matrix; and the
    maximum with zero is the rectifier written as a choice on the sign.  None of these uses finiteness.
  * The derivative `dxt` agrees when every datum is a real number: then the network's value `f` is a real number, and
    `(a + (1 - t) f) - t f = a + (1 - 2 t) f` is an identity of real numbers.  (Over the extended reals it fails, since
    `⊤ - ⊤ = ⊥`.)
-/
import proofs.«135234_j44229573214411_1_alg».proof.Proof.MlpSpec
import Mathlib.Algebra.BigOperators.Fin
import Mathlib.Data.EReal.Operations

open scoped BigOperators

namespace Mlp

/-! ## The concatenated row -/

/-- A sum over the 513 coordinates splits into the first block, the second block and the last coordinate. -/
theorem sum_split (f : Fin 513 → EReal) :
    ∑ k : Fin 513, f k = ((∑ k : Fin 256, f (lo k)) + (∑ k : Fin 256, f (hi k))) + f last := by
  have h1 : ∑ k : Fin 513, f k = (∑ k : Fin 512, f (Fin.castSucc k)) + f (Fin.last 512) :=
    Fin.sum_univ_castSucc (n := 512) f
  have h2 : ∑ k : Fin 512, f (Fin.castSucc k)
      = (∑ k : Fin 256, f (Fin.castSucc (Fin.castAdd 256 k)))
        + ∑ k : Fin 256, f (Fin.castSucc (Fin.natAdd 256 k)) :=
    Fin.sum_univ_add (a := 256) (b := 256) (fun k => f (Fin.castSucc k))
  rw [h1, h2]
  rfl

theorem zrow_lo (x0 x1 : Fin 256 → EReal) (t : EReal) (k : Fin 256) : zrow x0 x1 t (lo k) = x0 k := by
  have h : (lo k).val < 256 := k.isLt
  unfold zrow
  exact (dif_pos h).trans rfl

theorem zrow_hi (x0 x1 : Fin 256 → EReal) (t : EReal) (k : Fin 256) : zrow x0 x1 t (hi k) = x1 k := by
  have h : ¬ (hi k).val < 256 := by
    show ¬ 256 + k.val < 256
    omega
  have h' : (hi k).val < 512 := by
    show 256 + k.val < 512
    have := k.isLt
    omega
  unfold zrow
  refine (dif_neg h).trans ((dif_pos h').trans ?_)
  refine congrArg x1 (Fin.ext ?_)
  show 256 + k.val - 256 = k.val
  omega

theorem zrow_last (x0 x1 : Fin 256 → EReal) (t : EReal) : zrow x0 x1 t last = t := by
  have h : ¬ (last).val < 256 := by
    show ¬ 512 < 256
    omega
  have h' : ¬ (last).val < 512 := by
    show ¬ 512 < 512
    omega
  unfold zrow
  exact (dif_neg h).trans (dif_neg h')

/-- The unit row `e₅₁₂` times a matrix is row 512 of the matrix. -/
theorem lin_erow {N : Nat} (W : Fin 513 → Fin N → EReal) (j : Fin N) : lin erow W j = W last j := by
  unfold lin
  have h := Finset.sum_eq_single (s := Finset.univ) (f := fun k : Fin 513 => erow k * W k j) last
    (fun b _ hb => by
      have hv : ¬ b.val = 512 := fun e => hb (Fin.ext e)
      show erow b * W b j = 0
      unfold erow
      rw [if_neg hv, zero_mul])
    (fun hn => absurd (Finset.mem_univ _) hn)
  refine h.trans ?_
  show erow last * W last j = W last j
  have hl : erow last = 1 := by
    unfold erow
    exact if_pos rfl
  rw [hl, one_mul]

/-- The maximum with zero is the rectifier written as a choice on the sign. -/
theorem max_zero_eq_gate (p : EReal) : max p 0 = gate p p := by
  unfold gate
  by_cases h : 0 < p
  · rw [if_pos h, max_eq_left h.le]
  · rw [if_neg h, max_eq_right (not_lt.mp h)]

/-! ## Layer by layer, the R form is the K form -/

section
variable (P : Params) (x0 x1 : Fin 256 → EReal) (t : EReal)

theorem pre1R_eq : pre1R P x0 x1 t = pre1K P x0 x1 t := by
  funext j
  unfold pre1R pre1K lin
  rw [sum_split (fun k => zrow x0 x1 t k * P.W1 k j)]
  simp only [zrow_lo, zrow_hi, zrow_last]

theorem h1R_eq : h1R P x0 x1 t = h1K P x0 x1 t := by
  funext j
  unfold h1R h1K
  rw [pre1R_eq, max_zero_eq_gate]

theorem d1R_eq : d1R P x0 x1 t = d1K P x0 x1 t := by
  funext j
  unfold d1R d1K
  rw [pre1R_eq, lin_erow]

theorem pre2R_eq : pre2R P x0 x1 t = pre2K P x0 x1 t := by
  funext j
  unfold pre2R pre2K
  rw [h1R_eq]

theorem dp2R_eq : dp2R P x0 x1 t = dp2K P x0 x1 t := by
  funext j
  unfold dp2R dp2K
  rw [d1R_eq]

theorem h2R_eq : h2R P x0 x1 t = h2K P x0 x1 t := by
  funext j
  unfold h2R h2K
  rw [pre2R_eq, max_zero_eq_gate]

theorem d2R_eq : d2R P x0 x1 t = d2K P x0 x1 t := by
  funext j
  unfold d2R d2K
  rw [pre2R_eq, dp2R_eq]

theorem pre3R_eq : pre3R P x0 x1 t = pre3K P x0 x1 t := by
  funext j
  unfold pre3R pre3K
  rw [h2R_eq]

theorem dp3R_eq : dp3R P x0 x1 t = dp3K P x0 x1 t := by
  funext j
  unfold dp3R dp3K
  rw [d2R_eq]

theorem h3R_eq : h3R P x0 x1 t = h3K P x0 x1 t := by
  funext j
  unfold h3R h3K
  rw [pre3R_eq, max_zero_eq_gate]

theorem d3R_eq : d3R P x0 x1 t = d3K P x0 x1 t := by
  funext j
  unfold d3R d3K
  rw [pre3R_eq, dp3R_eq]

theorem fR_eq : fR P x0 x1 t = fK P x0 x1 t := by
  funext q
  unfold fR fK
  rw [h3R_eq]

theorem dfR_eq : dfR P x0 x1 t = dfK P x0 x1 t := by
  funext q
  unfold dfR dfK
  rw [d3R_eq]

end

/-- The value agrees for all extended-real data. -/
theorem xtR_eq_xtK (P : Params) (x0 x1 : Fin 256 → EReal) (t : EReal) (q : Fin 256) :
    xtR P x0 x1 t q = xtK P x0 x1 t q := by
  unfold xtR xtK
  rw [fR_eq]

/-! ## Real numbers inside the extended reals -/

theorem IsR.zero : IsR 0 := ⟨0, EReal.coe_zero.symm⟩

theorem IsR.add {a b : EReal} (ha : IsR a) (hb : IsR b) : IsR (a + b) := by
  obtain ⟨r, rfl⟩ := ha
  obtain ⟨s, rfl⟩ := hb
  exact ⟨r + s, (EReal.coe_add r s).symm⟩

theorem IsR.mul {a b : EReal} (ha : IsR a) (hb : IsR b) : IsR (a * b) := by
  obtain ⟨r, rfl⟩ := ha
  obtain ⟨s, rfl⟩ := hb
  exact ⟨r * s, (EReal.coe_mul r s).symm⟩

theorem IsR.sum {ι : Type} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact IsR.add (h a (Finset.mem_insert_self a s)) (ih (fun i hi => h i (Finset.mem_insert_of_mem hi)))

theorem IsR.gate (p : EReal) {d : EReal} (hd : IsR d) : IsR (gate p d) := by
  unfold Mlp.gate
  by_cases h : 0 < p
  · rw [if_pos h]; exact hd
  · rw [if_neg h]; exact IsR.zero

theorem IsR.lin {K N : Nat} (h : Fin K → EReal) (W : Fin K → Fin N → EReal) (hh : ∀ k, IsR (h k))
    (hW : ∀ k j, IsR (W k j)) (j : Fin N) : IsR (lin h W j) := by
  unfold Mlp.lin
  exact IsR.sum _ _ (fun k _ => IsR.mul (hh k) (hW k j))

/-! ## The network's value is a real number when the data are -/

section
variable (P : Params) (hP : P.Real) (x0 x1 : Fin 256 → EReal) (hx0 : ∀ k, IsR (x0 k)) (hx1 : ∀ k, IsR (x1 k))
  (t : EReal) (ht : IsR t)
include hP hx0 hx1 ht

theorem pre1K_real (j : Fin 1024) : IsR (pre1K P x0 x1 t j) := by
  unfold pre1K
  exact IsR.add
    (IsR.add
      (IsR.add (IsR.sum _ _ (fun k _ => IsR.mul (hx0 k) (hP.W1 _ j)))
        (IsR.sum _ _ (fun k _ => IsR.mul (hx1 k) (hP.W1 _ j))))
      (IsR.mul ht (hP.W1 _ j)))
    (hP.b1 j)

theorem h1K_real (j : Fin 1024) : IsR (h1K P x0 x1 t j) := by
  unfold h1K
  exact IsR.gate _ (pre1K_real P hP x0 x1 hx0 hx1 t ht j)

theorem pre2K_real (j : Fin 1024) : IsR (pre2K P x0 x1 t j) := by
  unfold pre2K
  exact IsR.add (IsR.lin _ _ (h1K_real P hP x0 x1 hx0 hx1 t ht) hP.W2 j) (hP.b2 j)

theorem h2K_real (j : Fin 1024) : IsR (h2K P x0 x1 t j) := by
  unfold h2K
  exact IsR.gate _ (pre2K_real P hP x0 x1 hx0 hx1 t ht j)

theorem pre3K_real (j : Fin 1024) : IsR (pre3K P x0 x1 t j) := by
  unfold pre3K
  exact IsR.add (IsR.lin _ _ (h2K_real P hP x0 x1 hx0 hx1 t ht) hP.W3 j) (hP.b3 j)

theorem h3K_real (j : Fin 1024) : IsR (h3K P x0 x1 t j) := by
  unfold h3K
  exact IsR.gate _ (pre3K_real P hP x0 x1 hx0 hx1 t ht j)

theorem fK_real (q : Fin 256) : IsR (fK P x0 x1 t q) := by
  unfold fK
  exact IsR.add (IsR.lin _ _ (h3K_real P hP x0 x1 hx0 hx1 t ht) hP.W4 q) (hP.b4 q)

end

/-! ## The derivative -/

/-- For real numbers `a`, `t`, `f`: `(a + (1 - t) f) - t f = a + (1 - 2 t) f`, read in the extended reals. -/
theorem combine_real (a0 a1 τ φ : ℝ) :
    ((((a1 : EReal) - (a0 : EReal)) + (1 - (τ : EReal)) * (φ : EReal)) - (τ : EReal) * (φ : EReal))
      = (((a1 : EReal) - (a0 : EReal)) + (1 - 2 * (τ : EReal)) * (φ : EReal)) := by
  have h2 : (2 : EReal) = ((2 : ℝ) : EReal) := rfl
  have hr : ((a1 - a0) + (1 - τ) * φ) - τ * φ = (a1 - a0) + (1 - 2 * τ) * φ := by ring
  have hc := congrArg (fun r : ℝ => (r : EReal)) hr
  simp only [EReal.coe_sub, EReal.coe_add, EReal.coe_mul, EReal.coe_one] at hc
  rw [h2]
  exact hc

/-- The derivative agrees when every datum is a real number. -/
theorem dtR_eq_dtK (P : Params) (hP : P.Real) (x0 x1 : Fin 256 → EReal) (hx0 : ∀ k, IsR (x0 k))
    (hx1 : ∀ k, IsR (x1 k)) (t : EReal) (ht : IsR t) (q : Fin 256) :
    dtR P x0 x1 t q = dtK P x0 x1 t q := by
  unfold dtR dtK
  rw [fR_eq, dfR_eq]
  obtain ⟨φ, hφ⟩ := fK_real P hP x0 x1 hx0 hx1 t ht q
  obtain ⟨a0, h0⟩ := hx0 q
  obtain ⟨a1, h1⟩ := hx1 q
  obtain ⟨τ, hτ⟩ := ht
  refine congrArg (fun z => z + (t * (1 - t)) * dfK P x0 x1 t q) ?_
  rw [hφ, h0, h1, hτ]
  exact combine_real a0 a1 τ φ

end Mlp
-- ==== Proof.FiniteInputs.lean ====
/-
  The precondition read back: every entry of the eleven input arrays is a real number.

  The precondition is a conjunction of eleven blocks, one per array: the block of an array `a` says that at every
  index `|a i| < +∞`, where `|x|` is `max x (-x)` on the extended reals. From `max x (-x) < ⊤` follow `x ≠ ⊤` and
  `x ≠ ⊥`, so `x` is the image of a real number.
-/
import proofs.«135234_j44229573214411_1_alg».proof.Pre_finite_inputs
import proofs.«135234_j44229573214411_1_alg».proof.Proof.Gen.Pre_finite_inputs
import proofs.«135234_j44229573214411_1_alg».proof.Proof.MlpSpec
import Idealize.ShloMosaic.Lib.ReduceAll
import Idealize.ShloMosaic.PureOps.Ideal.Laws

namespace Cert.FiniteInputs

open Idealize.ShloMosaic Cert.Pre_finite_inputs

/-- An extended real whose absolute value is below `⊤` is a real number. -/
theorem isR_of_abs_lt_top (x : EReal) (h : max x (-x) < ⊤) : Mlp.IsR x := by
  have h1 : x ≠ ⊤ := by
    intro e
    subst e
    simp at h
  have h2 : x ≠ ⊥ := by
    intro e
    subst e
    simp at h
  exact ⟨x.toReal, (EReal.coe_toReal h1 h2).symm⟩

/-- The word `0x7F800000` denotes `+∞`. -/
theorem ofBits_inf : Ideal.ofBits .f32 0x7F800000#32 = ⊤ := by simp [Ideal.ofBits, Ideal.ieee]

/-- One entry: the comparison `|x| < +∞` came out true, so `x` is a real number. -/
theorem isR_of_cmp (x : Ideal .f32)
    (h : FloatOps.cmpf .olt (FloatOps.hostAbsf x) (FloatOps.ofBits (F := Ideal) .f32 0x7F800000#32) = 1#1) :
    Mlp.IsR x := by
  have h' : Ideal.cmp .olt (max (x : EReal) (-(x : EReal))) (Ideal.ofBits .f32 0x7F800000#32) = 1#1 := h
  rw [ofBits_inf] at h'
  refine isR_of_abs_lt_top x ?_
  by_contra hn
  simp [Ideal.cmp, hn] at h'

instance : Subsingleton S_.Idx := ⟨fun a b => funext fun d => d.elim0⟩

/-- One block of the precondition: if the conjunction over all indices of `|a i| < +∞` is true, every entry of `a`
    is a real number. -/
theorem block {s : Shape} {axes : List (Fin s.rank)} (hb : S_.BroadcastsInDim s (![] : Fin 0 → Fin s.rank))
    (hr : s.ReducesTo axes S_) (hu : 0 < S_.numel) (a : FVec Ideal s .f32) (j : S_.Idx)
    (e : Host.reduce IntOp.andi
          (cmpf .olt (Host.absf a) (broadcastInDim s ![] hb (constant (F := Ideal) S_ .f32 0x7F800000#32)))
          (constantI S_ 1 1#1) hr hu j = 1#1) :
    ∀ i, Mlp.IsR (a i) := by
  intro i
  have hi := Host.reduce_andi_all _ _ hr hu j e i
  exact isR_of_cmp (a i) hi

/-- The conjunction of two truth values at an index. -/
theorem andi_apply {s : Shape} (x y : IVec s 1) (i : s.Idx) :
    andi x y i = 1#1 ↔ x i = 1#1 ∧ y i = 1#1 := IntOp.andi_eq_one

/-- The precondition gives that every entry of every input array is a real number. -/
theorem real_of_pre [Cert.Pre_finite_inputs.Facts]
    (a0 a1 : FVec Ideal Cert.Pre_finite_inputs.S65536x256 .f32) (a2 : FVec Ideal Cert.Pre_finite_inputs.S65536x1 .f32)
    (a3 : FVec Ideal Cert.Pre_finite_inputs.S513x1024 .f32) (a4 : FVec Ideal Cert.Pre_finite_inputs.S1024 .f32)
    (a5 : FVec Ideal Cert.Pre_finite_inputs.S1024x1024 .f32) (a6 : FVec Ideal Cert.Pre_finite_inputs.S1024 .f32)
    (a7 : FVec Ideal Cert.Pre_finite_inputs.S1024x1024 .f32) (a8 : FVec Ideal Cert.Pre_finite_inputs.S1024 .f32)
    (a9 : FVec Ideal Cert.Pre_finite_inputs.S1024x256 .f32) (a10 : FVec Ideal Cert.Pre_finite_inputs.S256 .f32)
    (h : Cert.Pre_finite_inputs.fn (F := Ideal) a0 a1 a2 a3 a4 a5 a6 a7 a8 a9 a10 = fun _ => 1#1) :
    (∀ i, Mlp.IsR (a0 i)) ∧ (∀ i, Mlp.IsR (a1 i)) ∧ (∀ i, Mlp.IsR (a2 i)) ∧ (∀ i, Mlp.IsR (a3 i)) ∧
      (∀ i, Mlp.IsR (a4 i)) ∧ (∀ i, Mlp.IsR (a5 i)) ∧ (∀ i, Mlp.IsR (a6 i)) ∧ (∀ i, Mlp.IsR (a7 i)) ∧
      (∀ i, Mlp.IsR (a8 i)) ∧ (∀ i, Mlp.IsR (a9 i)) ∧ (∀ i, Mlp.IsR (a10 i)) := by
  have h0 := congrFun h ValueIdx.ix0
  dsimp only [fn, fn_part1, fn_part2, fn_part3] at h0
  simp only [andi_apply] at h0
  obtain ⟨⟨⟨⟨⟨⟨⟨⟨⟨⟨e0, e1⟩, e2⟩, e3⟩, e4⟩, e5⟩, e6⟩, e7⟩, e8⟩, e9⟩, e10⟩ := h0
  exact ⟨block _ _ _ a0 _ e0, block _ _ _ a1 _ e1, block _ _ _ a2 _ e2, block _ _ _ a3 _ e3, block _ _ _ a4 _ e4,
    block _ _ _ a5 _ e5, block _ _ _ a6 _ e6, block _ _ _ a7 _ e7, block _ _ _ a8 _ e8, block _ _ _ a9 _ e9,
    block _ _ _ a10 _ e10⟩

end Cert.FiniteInputs
-- ==== Proof.Bridge.lean ====
/-
  The two programs compute one function.

  After its run the kernel's two result arrays hold, row by row, the K form of the per-sample function at the
  arguments; the reference's two results are, entry by entry, the R form at its arguments, which agree with the
  kernel's. The first results agree for all extended-real data. The second results differ by the step
  `(1 - t) f - t f = (1 - 2 t) f`, which holds because the precondition makes every input a real number, hence the
  network's value `f` a real number.
-/
import proofs.«135234_j44229573214411_1_alg».proof.Defs
import proofs.«135234_j44229573214411_1_alg».proof.Proof.KernelArray
import proofs.«135234_j44229573214411_1_alg».proof.Proof.RefRead
import proofs.«135234_j44229573214411_1_alg».proof.Proof.MlpAlgebra
import proofs.«135234_j44229573214411_1_alg».proof.Proof.FiniteInputs
import proofs.«135234_j44229573214411_1_alg».proof.Proof.Gen.Pre_finite_inputs
import proofs.«135234_j44229573214411_1_alg».proof.Proof.Gen.ReferenceIdeal.Run
import proofs.«135234_j44229573214411_1_alg».proof.Proof.Gen.ReferenceIdeal.Read

noncomputable section

namespace Cert.Bridge

open Idealize.ShloMosaic Idealize.ShloMosaic.TcCoe Idealize.SL.Sem Idealize.ShloMosaic.ValueIdx

/-- Under the precondition every weight, bias, state entry and time is a real number. -/
theorem data_real (m : (ℓ : Loc Cert.KernelIdeal.nD Cert.KernelIdeal.τ Cert.KernelIdeal.sig) → Buf (Elt Ideal) ℓ) (hpre : Cert.Pre_KernelIdeal m)
    (c : Dev Cert.KernelIdeal.nD) :
    (Cert.KernelIdeal.ArrayValue.argP m c).Real
      ∧ (∀ b k, Mlp.IsR (Mlp.rowOf (m ((c.tc : Thread Cert.KernelIdeal.nD Cert.KernelIdeal.τ).loc Cert.KernelIdeal.main_arg0)) b k))
      ∧ (∀ b k, Mlp.IsR (Mlp.rowOf (m ((c.tc : Thread Cert.KernelIdeal.nD Cert.KernelIdeal.τ).loc Cert.KernelIdeal.main_arg1)) b k))
      ∧ (∀ b, Mlp.IsR (Mlp.colOf (m ((c.tc : Thread Cert.KernelIdeal.nD Cert.KernelIdeal.τ).loc Cert.KernelIdeal.main_arg2)) b)) := by
  obtain ⟨h0, h1, h2, h3, h4, h5, h6, h7, h8, h9, h10⟩ := Cert.FiniteInputs.real_of_pre _ _ _ _ _ _ _ _ _ _ _ (hpre c)
  exact ⟨⟨fun k j => h3 _, fun j => h4 _, fun k j => h5 _, fun j => h6 _, fun k j => h7 _, fun j => h8 _, fun k j => h9 _,
    fun j => h10 _⟩, fun b k => h0 _, fun b k => h1 _, fun b => h2 _⟩

/-- The reference's frame: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the same two result arrays. -/
theorem algebraic : Cert.algebraic_KernelIdeal_ReferenceIdeal := by
  intro m ρ m' ρ' hpre hagree
  refine ⟨fun c => Cert.KernelIdeal.ArrayValue.Gxt m c, fun c => Cert.KernelIdeal.ArrayValue.Gdt m c, Cert.KernelIdeal.ArrayValue.run m ρ, ?_⟩
  refine (θ_run Cert.ReferenceIdeal.defs _ _).mono (fun r h c => ⟨?_, ?_, (h c).2.2⟩)
    (Cert.ReferenceIdeal.Value.run (F := Ideal) m' ρ')
  · -- the first result: the R form is the K form for all data
    refine (h c).1.trans ((Cert.ReferenceIdeal.Read.val_main_v52_eq _ _ _ _ _ _ _ _ _ _ _).trans ?_)
    obtain ⟨a0, a1, a2, a3, a4, a5, a6, a7, a8, a9, a10⟩ := hagree c
    rw [a0, a1, a2, a3, a4, a5, a6, a7, a8, a9, a10]
    funext i
    obtain ⟨b, q, rfl⟩ : ∃ (b : Fin 65536) (q : Fin 256), i = ix2 b q := ⟨i 0, i 1, eq_ix2 i⟩
    rw [Cert.ReferenceIdeal.RefValue.ref_xt, Mlp.xtR_eq_xtK]
    rfl
  · -- the second result: the R form is the K form on real data
    refine (h c).2.1.trans ((Cert.ReferenceIdeal.Read.val_main_v67_eq m' c).trans ?_)
    obtain ⟨a0, a1, a2, a3, a4, a5, a6, a7, a8, a9, a10⟩ := hagree c
    rw [a0, a1, a2, a3, a4, a5, a6, a7, a8, a9, a10]
    funext i
    obtain ⟨b, q, rfl⟩ : ∃ (b : Fin 65536) (q : Fin 256), i = ix2 b q := ⟨i 0, i 1, eq_ix2 i⟩
    obtain ⟨hP, hx0, hx1, ht⟩ := data_real m hpre c
    rw [Cert.ReferenceIdeal.RefValue.ref_dt, Mlp.dtR_eq_dtK _ hP _ _ (hx0 b) (hx1 b) _ (ht b)]
    rfl

end Cert.Bridge

end
-- ==== Proof.lean ====
/-
  The certificate of a fused four-layer perceptron with its time derivative against the jnp reference.

  Per sample both programs evaluate a perceptron on the concatenated row `(x0, x1, t)` and carry the derivative in `t`
  forward through the layers, then form `xt = (1 - t) x0 + t x1 + t (1 - t) f` and
  `dxt = x1 - x0 + (1 - 2 t) f + t (1 - t) f'`. The kernel does this for 512 samples per grid step, with the first layer's
  product taken in three pieces and narrower float formats on the matrix unit (the identity at the ideal values);
  the reference does it for all 65536 samples at once, with the derivative seeded by a unit row.

  * Proof/MlpSpec.lean states the per-sample function in both forms; Proof/MlpAlgebra.lean proves the forms equal
    (the last step under finiteness), Proof/FiniteInputs.lean reads finiteness out of the precondition.
  * Proof/KernelRow.lean and Proof/KernelArray.lean read the kernel's run: each block entry, then the whole arrays.
  * Proof/RefRead.lean reads the reference's run entry by entry.
  * Proof/Bridge.lean joins them into the frame of the reference and the equality of the results.
  The frames of the two kernel programs are the generated frame runs; the idealization rewrote no operation.
-/
import proofs.«135234_j44229573214411_1_alg».proof.Defs
import proofs.«135234_j44229573214411_1_alg».proof.Proof.Gen.Kernel
import proofs.«135234_j44229573214411_1_alg».proof.Proof.Gen.Kernel.Skeleton
import proofs.«135234_j44229573214411_1_alg».proof.Proof.Gen.Kernel.Launch
import proofs.«135234_j44229573214411_1_alg».proof.Proof.Gen.Kernel.Points
import proofs.«135234_j44229573214411_1_alg».proof.Proof.Gen.Kernel.Frame
import proofs.«135234_j44229573214411_1_alg».proof.Proof.Gen.KernelIdeal
import proofs.«135234_j44229573214411_1_alg».proof.Proof.Gen.KernelIdeal.Skeleton
import proofs.«135234_j44229573214411_1_alg».proof.Proof.Gen.KernelIdeal.Launch
import proofs.«135234_j44229573214411_1_alg».proof.Proof.Gen.KernelIdeal.Points
import proofs.«135234_j44229573214411_1_alg».proof.Proof.Gen.KernelIdeal.Frame
import proofs.«135234_j44229573214411_1_alg».proof.Proof.Gen.ReferenceIdeal
import proofs.«135234_j44229573214411_1_alg».proof.Proof.Gen.Pre_finite_inputs
import proofs.«135234_j44229573214411_1_alg».proof.Proof.KernelIdealValue
import proofs.«135234_j44229573214411_1_alg».proof.Proof.Gen.ReferenceIdeal.Run
import proofs.«135234_j44229573214411_1_alg».proof.Proof.Gen.ReferenceIdeal.Read
import proofs.«135234_j44229573214411_1_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Cert.Bridge.frame_ri,
  trivial,
  Cert.Bridge.algebraic⟩

end Cert.Proof

end
